-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x2000000 : Shape := ⟨2, ![2, 2000000]⟩
abbrev S999999x1 : Shape := ⟨2, ![999999, 1]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S2x999999 : Shape := ⟨2, ![2, 999999]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S999999x1 : S_.BroadcastsInDim S999999x1 (![] : Fin 0 → Fin S999999x1.rank)
  reducesTo_S999999x1_S_d0_1 : S999999x1.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x2000000_S2x999999_0_0 : S2x2000000.Slices ![0, 0] S2x999999
  bcast_S_S2x999999 : S_.BroadcastsInDim S2x999999 (![] : Fin 0 → Fin S2x999999.rank)
  reducesTo_S2x999999_S_d0_1 : S2x999999.ReducesTo [0, 1] S_

variable [Facts]

def fn_part2 {F : FTy → Type} [FloatOps F] (main_v28 : IVec S_ 1) (main_v31 : IVec S2x999999 1) (main_v32 : IVec S2x999999 32) (main_v33 : IVec S2x999999 32) : IVec S_ 1 :=
  let main_v34 : IVec S2x999999 1 := cmpi .slt main_v32 main_v33
  let main_v35 : IVec S2x999999 1 := andi main_v31 main_v34
  let main_c_12 : IVec S_ 1 := constantI S_ 1 1#1
  let main_v36 : IVec S_ 1 := (fun x v => Host.reduce IntOp.andi x v reducesTo_S2x999999_S_d0_1 h_S_) main_v35 main_c_12
  let main_v37 : IVec S_ 1 := andi main_v28 main_v36
  main_v37

def fn_part1 {F : FTy → Type} [FloatOps F] (main_arg1 : IVec S2x2000000 32) (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : IVec S2x999999 32 := (extractStridedSlice S2x999999 ![0, 0] · slices_S2x2000000_S2x999999_0_0) main_arg1
  let main_c_10 : IVec S_ 32 := constantI S_ 32 4294867296#32
  let main_v30 : IVec S2x999999 32 := broadcastInDim S2x999999 ![] bcast_S_S2x999999 main_c_10
  let main_v31 : IVec S2x999999 1 := cmpi .sge main_v29 main_v30
  let main_v32 : IVec S2x999999 32 := (extractStridedSlice S2x999999 ![0, 0] · slices_S2x2000000_S2x999999_0_0) main_arg1
  let main_c_11 : IVec S_ 32 := constantI S_ 32 100000#32
  let main_v33 : IVec S2x999999 32 := broadcastInDim S2x999999 ![] bcast_S_S2x999999 main_c_11
  fn_part2 (F := F) main_v28 main_v31 main_v32 main_v33

def fn {F : FTy → Type} [FloatOps F] (main_arg0 : FVec F S100000x128 .f32) (main_arg1 : IVec S2x2000000 32) (main_arg2 : FVec F S999999x1 .f32) (main_arg3 : FVec F S256x64 .f32) (main_arg4 : FVec F S64 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S999999x1 .f32 := Host.absf main_arg2
  let main_cst_0 : FVec F S_ .f32 := constant S_ .f32 0x7F800000#32
  let main_v5 : FVec F S999999x1 .f32 := broadcastInDim S999999x1 ![] bcast_S_S999999x1 main_cst_0
  let main_v6 : IVec S999999x1 1 := cmpf .olt main_v4 main_v5
  let main_c_1 : IVec S_ 1 := constantI S_ 1 1#1
  let main_v7 : IVec S_ 1 := (fun x v => Host.reduce IntOp.andi x v reducesTo_S999999x1_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S100000x128 : Shape := ⟨2, ![100000, 128]⟩
abbrev S2x2000000 : Shape := ⟨2, ![2, 2000000]⟩
abbrev S999999x1 : Shape := ⟨2, ![999999, 1]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x999999 : Shape := ⟨2, ![1, 999999]⟩
abbrev S999999 : Shape := ⟨1, ![999999]⟩
abbrev S_ : Shape := ⟨0, ![]⟩
abbrev S1003520 : Shape := ⟨1, ![1003520]⟩
abbrev S1003520x1 : Shape := ⟨2, ![1003520, 1]⟩
abbrev S128x64 : Shape := ⟨2, ![128, 64]⟩
abbrev S100000x64 : Shape := ⟨2, ![100000, 64]⟩
abbrev S1x1 : Shape := ⟨2, ![1, 1]⟩
abbrev S1003520x64 : Shape := ⟨2, ![1003520, 64]⟩
abbrev S4096x64 : Shape := ⟨2, ![4096, 64]⟩
abbrev S4096x1 : Shape := ⟨2, ![4096, 1]⟩
abbrev S1x64 : Shape := ⟨2, ![1, 64]⟩
abbrev S1999998 : Shape := ⟨1, ![1999998]⟩

abbrev nBuf : Space → Nat
  | .hbm => 76
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S999999x1, .f32⟩
  | .hbm, ⟨3, _⟩ => ⟨S256x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x999999, .i32⟩
  | .hbm, ⟨8, _⟩ => ⟨S999999, .i32⟩
  | .hbm, ⟨9, _⟩ => ⟨S1x999999, .i32⟩
  | .hbm, ⟨10, _⟩ => ⟨S999999, .i32⟩
  | .hbm, ⟨11, _⟩ => ⟨S_, .i32⟩
  | .hbm, ⟨12, _⟩ => ⟨S_, .i32⟩
  | .hbm, ⟨13, _⟩ => ⟨S1003520, .i32⟩
  | .hbm, ⟨14, _⟩ => ⟨S_, .i32⟩
  | .hbm, ⟨15, _⟩ => ⟨S_, .i32⟩
  | .hbm, ⟨16, _⟩ => ⟨S1003520, .i32⟩
  | .hbm, ⟨17, _⟩ => ⟨S_, .f32⟩
  | .hbm, ⟨18, _⟩ => ⟨S_, .f32⟩
  | .hbm, ⟨19, _⟩ => ⟨S1003520x1, .f32⟩
  | .hbm, ⟨20, _⟩ => ⟨S100000x128, .bf16⟩
  | .hbm, ⟨21, _⟩ => ⟨S256x64, .bf16⟩
  | .hbm, ⟨22, _⟩ => ⟨S128x64, .bf16⟩
  | .hbm, ⟨23, _⟩ => ⟨S100000x64, .f32⟩
  | .hbm, ⟨24, _⟩ => ⟨S128x64, .bf16⟩
  | .hbm, ⟨25, _⟩ => ⟨S100000x64, .f32⟩
  | .hbm, ⟨26, _⟩ => ⟨S_, .i32⟩
  | .hbm, ⟨27, _⟩ => ⟨S1003520, .i32⟩
  | .hbm, ⟨28, _⟩ => ⟨S1003520, .i1⟩
  | .hbm, ⟨29, _⟩ => ⟨S_, .i32⟩
  | .hbm, ⟨30, _⟩ => ⟨S1003520, .i32⟩
  | .hbm, ⟨31, _⟩ => ⟨S1003520, .i32⟩
  | .hbm, ⟨32, _⟩ => ⟨S1003520, .i32⟩
  | .hbm, ⟨33, _⟩ => ⟨S1003520x1, .i32⟩
  | .hbm, ⟨34, _⟩ => ⟨S1, .i32⟩
  | .hbm, ⟨35, _⟩ => ⟨S_, .i32⟩
  | .hbm, ⟨36, _⟩ => ⟨S1003520x1, .i32⟩
  | .hbm, ⟨37, _⟩ => ⟨S1003520x1, .i1⟩
  | .hbm, ⟨38, _⟩ => ⟨S1x1, .i32⟩
  | .hbm, ⟨39, _⟩ => ⟨S1003520x1, .i32⟩
  | .hbm, ⟨40, _⟩ => ⟨S1003520x1, .i1⟩
  | .hbm, ⟨41, _⟩ => ⟨S1003520x1, .i1⟩
  | .hbm, ⟨42, _⟩ => ⟨S_, .i1⟩
  | .hbm, ⟨43, _⟩ => ⟨S1003520, .i1⟩
  | .hbm, ⟨44, _⟩ => ⟨S1003520x64, .f32⟩
  | .hbm, ⟨45, _⟩ => ⟨S1003520x64, .i1⟩
  | .hbm, ⟨46, _⟩ => ⟨S_, .f32⟩
  | .hbm, ⟨47, _⟩ => ⟨S1003520x64, .f32⟩
  | .hbm, ⟨48, _⟩ => ⟨S1003520x64, .f32⟩
  | .hbm, ⟨49, _⟩ => ⟨S_, .i32⟩
  | .hbm, ⟨50, _⟩ => ⟨S1003520, .i32⟩
  | .hbm, ⟨51, _⟩ => ⟨S1003520, .i1⟩
  | .hbm, ⟨52, _⟩ => ⟨S_, .i32⟩
  | .hbm, ⟨53, _⟩ => ⟨S1003520, .i32⟩
  | .hbm, ⟨54, _⟩ => ⟨S1003520, .i32⟩
  | .hbm, ⟨55, _⟩ => ⟨S1003520, .i32⟩
  | .hbm, ⟨56, _⟩ => ⟨S1003520x1, .i32⟩
  | .hbm, ⟨57, _⟩ => ⟨S1, .i32⟩
  | .hbm, ⟨58, _⟩ => ⟨S_, .i32⟩
  | .hbm, ⟨59, _⟩ => ⟨S1003520x1, .i32⟩
  | .hbm, ⟨60, _⟩ => ⟨S1003520x1, .i1⟩
  | .hbm, ⟨61, _⟩ => ⟨S1x1, .i32⟩
  | .hbm, ⟨62, _⟩ => ⟨S1003520x1, .i32⟩
  | .hbm, ⟨63, _⟩ => ⟨S1003520x1, .i1⟩
  | .hbm, ⟨64, _⟩ => ⟨S1003520x1, .i1⟩
  | .hbm, ⟨65, _⟩ => ⟨S_, .i1⟩
  | .hbm, ⟨66, _⟩ => ⟨S1003520, .i1⟩
  | .hbm, ⟨67, _⟩ => ⟨S1003520x64, .f32⟩
  | .hbm, ⟨68, _⟩ => ⟨S1003520x64, .i1⟩
  | .hbm, ⟨69, _⟩ => ⟨S_, .f32⟩
  | .hbm, ⟨70, _⟩ => ⟨S1003520x64, .f32⟩
  | .hbm, ⟨71, _⟩ => ⟨S1003520x64, .f32⟩
  | .hbm, ⟨72, _⟩ => ⟨S1003520x1, .f32⟩
  | .hbm, ⟨73, _⟩ => ⟨S999999x1, .f32⟩
  | .hbm, ⟨74, _⟩ => ⟨S999999, .f32⟩
  | .hbm, ⟨75, _⟩ => ⟨S1999998, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x1, .f32⟩
  | .local _ .vmem, ⟨5, _⟩ => ⟨S4096x1, .f32⟩
  | .local _ .vmem, ⟨6, _⟩ => ⟨S64, .f32⟩
  | .local _ .vmem, ⟨7, _⟩ => ⟨S64x1, .f32⟩
  | .local _ .vmem, ⟨8, _⟩ => ⟨S1, .f32⟩
  | .local _ .vmem, ⟨9, _⟩ => ⟨S4096x1, .f32⟩
  | .local _ .vmem, ⟨10, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_cst : Ref sig .tc := ⟨.hbm, 17, rfl⟩
abbrev main_call2_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call3_c : Ref sig .tc := ⟨.hbm, 26, rfl⟩
abbrev main_call3_v0 : Ref sig .tc := ⟨.hbm, 27, rfl⟩
abbrev main_call3_v1 : Ref sig .tc := ⟨.hbm, 28, rfl⟩
abbrev main_call3_c_0 : Ref sig .tc := ⟨.hbm, 29, rfl⟩
abbrev main_call3_v2 : Ref sig .tc := ⟨.hbm, 30, rfl⟩
abbrev main_call3_v3 : Ref sig .tc := ⟨.hbm, 31, rfl⟩
abbrev main_call3_v4 : Ref sig .tc := ⟨.hbm, 32, rfl⟩
abbrev main_call3_v5 : Ref sig .tc := ⟨.hbm, 33, rfl⟩
abbrev main_call3_c_1 : Ref sig .tc := ⟨.hbm, 34, rfl⟩
abbrev main_call3_c_2 : Ref sig .tc := ⟨.hbm, 35, rfl⟩
abbrev main_call3_v6 : Ref sig .tc := ⟨.hbm, 36, rfl⟩
abbrev main_call3_v7 : Ref sig .tc := ⟨.hbm, 37, rfl⟩
abbrev main_call3_v8 : Ref sig .tc := ⟨.hbm, 38, rfl⟩
abbrev main_call3_v9 : Ref sig .tc := ⟨.hbm, 39, rfl⟩
abbrev main_call3_v10 : Ref sig .tc := ⟨.hbm, 40, rfl⟩
abbrev main_call3_v11 : Ref sig .tc := ⟨.hbm, 41, rfl⟩
abbrev main_call3_c_3 : Ref sig .tc := ⟨.hbm, 42, rfl⟩
abbrev main_call3_v12 : Ref sig .tc := ⟨.hbm, 43, rfl⟩
abbrev main_call3_v13 : Ref sig .tc := ⟨.hbm, 44, rfl⟩
abbrev main_call3_v14 : Ref sig .tc := ⟨.hbm, 45, rfl⟩
abbrev main_call3_cst : Ref sig .tc := ⟨.hbm, 46, rfl⟩
abbrev main_call3_v15 : Ref sig .tc := ⟨.hbm, 47, rfl⟩
abbrev main_v13 : Ref sig .tc := ⟨.hbm, 48, rfl⟩
abbrev main_call4_c : Ref sig .tc := ⟨.hbm, 49, rfl⟩
abbrev main_call4_v0 : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_c_1 : Ref sig .tc := ⟨.hbm, 57, rfl⟩
abbrev main_call4_c_2 : Ref sig .tc := ⟨.hbm, 58, rfl⟩
abbrev main_call4_v6 : Ref sig .tc := ⟨.hbm, 59, rfl⟩
abbrev main_call4_v7 : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_c_3 : Ref sig .tc := ⟨.hbm, 65, rfl⟩
abbrev main_call4_v12 : Ref sig .tc := ⟨.hbm, 66, rfl⟩
abbrev main_call4_v13 : Ref sig .tc := ⟨.hbm, 67, rfl⟩
abbrev main_call4_v14 : Ref sig .tc := ⟨.hbm, 68, rfl⟩
abbrev main_call4_cst : Ref sig .tc := ⟨.hbm, 69, rfl⟩
abbrev main_call4_v15 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x2000000_S1x999999_0_0 : S2x2000000.Slices ![0, 0] S1x999999
  shapeCasts_S1x999999_S999999 : S1x999999.ShapeCasts S999999
  slices_S2x2000000_S1x999999_1_0 : S2x2000000.Slices ![1, 0] S1x999999
  pads_S999999_S1003520_035210 : S999999.Pads (![0] : Fin 1 → Nat) ![3521] ![0] S1003520
  h_S_ : 0 < S_.numel
  pads_S999999x1_S1003520x1_035210_000 : S999999x1.Pads (![0, 0] : Fin 2 → Nat) ![3521, 0] ![0, 0] S1003520x1
  bitsLt_bf16_f32 : FTy.bits .bf16 < FTy.bits .f32
  slices_S256x64_S128x64_0_0 : S256x64.Slices ![0, 0] S128x64
  slices_S256x64_S128x64_128_0 : S256x64.Slices ![128, 0] S128x64
  bcast_S_S1003520 : S_.BroadcastsInDim S1003520 (![] : Fin 0 → Fin S1003520.rank)
  bcast_S1003520_S1003520x1_0 : S1003520.BroadcastsInDim S1003520x1 (![0] : Fin 1 → Fin S1003520x1.rank)
  bcast_S_S1003520x1 : S_.BroadcastsInDim S1003520x1 (![] : Fin 0 → Fin S1003520x1.rank)
  bcast_S1_S1x1_1 : S1.BroadcastsInDim S1x1 (![1] : Fin 1 → Fin S1x1.rank)
  bcast_S1x1_S1003520x1_0_1 : S1x1.BroadcastsInDim S1003520x1 (![0, 1] : Fin 2 → Fin S1003520x1.rank)
  reducesTo_S1003520x1_S1003520_d1 : S1003520x1.ReducesTo [1] S1003520
  bcast_S1003520_S1003520x64_0 : S1003520.BroadcastsInDim S1003520x64 (![0] : Fin 1 → Fin S1003520x64.rank)
  bcast_S_S1003520x64 : S_.BroadcastsInDim S1003520x64 (![] : Fin 0 → Fin S1003520x64.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  slices_S1003520x1_S999999x1_0_0 : S1003520x1.Slices ![0, 0] S999999x1
  shapeCasts_S999999x1_S999999 : S999999x1.ShapeCasts S999999
  concatenates_S999999_S999999_S1999998_d0 : Shape.Concatenates [S999999, S999999] S1999998 0
  dot_S100000x128_S128x64_S100000x64_1_0_0_1_n_n_wf : DotDims.WF S100000x128 S128x64 S100000x64 [1] [0] [0] [1] [] []
  gather_S100000x64_S1003520x1_S1003520x64_1_0_n_n_0_1_164_wf : GatherDims.WF S100000x64 S1003520x1 S1003520x64 [1] [0] [] [0] [] 1 ![1, 64]
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1003520x64.size a
  hwx0_0 : ∀ i : grid0.Coords, EltTy.bits .f32 = 32 ∨ (Rect.block (s := S1003520x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S1003520x64.size a
  hwx0_1 : ∀ i : grid0.Coords, EltTy.bits .f32 = 32 ∨ (Rect.block (s := S1003520x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S1003520x1.size a
  hwx0_2 : ∀ i : grid0.Coords, EltTy.bits .f32 = 32 ∨ (Rect.block (s := S1003520x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x1.size a ≤ S1003520x1.size a
  hwx0_6 : ∀ i : grid0.Coords, EltTy.bits .f32 = 32 ∨ (Rect.block (s := S1003520x1) S4096x1.size (cc0_transform_6 i) (hinb0_6 i)).WholeWords (EltTy.packing .f32)

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1003520x1_S1003520x64_1_0_n_n_0_1_164 : GatherDims S100000x64 S1003520x1 S1003520x64 where
  offsetDims := [1]
  collapsedSliceDims := [0]
  operandBatchingDims := []
  startIndicesBatchingDims := []
  startIndexMap := [0]
  indexVectorDim := 1
  sliceSizes := ![1, 64]
  wf := gather_S100000x64_S1003520x1_S1003520x64_1_0_n_n_0_1_164_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_v13) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4096x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x2000000 : Shape := ⟨2, ![2, 2000000]⟩
abbrev S999999x1 : Shape := ⟨2, ![999999, 1]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x999999 : Shape := ⟨2, ![1, 999999]⟩
abbrev S999999 : Shape := ⟨1, ![999999]⟩
abbrev S_ : Shape := ⟨0, ![]⟩
abbrev S999999x128 : Shape := ⟨2, ![999999, 128]⟩
abbrev S999999x256 : Shape := ⟨2, ![999999, 256]⟩
abbrev S999999x64 : Shape := ⟨2, ![999999, 64]⟩
abbrev S1x64 : Shape := ⟨2, ![1, 64]⟩
abbrev S1x1 : Shape := ⟨2, ![1, 1]⟩
abbrev S1999998 : Shape := ⟨1, ![1999998]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S999999x1, .f32⟩
  | .hbm, ⟨3, _⟩ => ⟨S256x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x999999, .i32⟩
  | .hbm, ⟨8, _⟩ => ⟨S999999, .i32⟩
  | .hbm, ⟨9, _⟩ => ⟨S1x999999, .i32⟩
  | .hbm, ⟨10, _⟩ => ⟨S999999, .i32⟩
  | .hbm, ⟨11, _⟩ => ⟨S_, .i32⟩
  | .hbm, ⟨12, _⟩ => ⟨S999999, .i32⟩
  | .hbm, ⟨13, _⟩ => ⟨S999999, .i1⟩
  | .hbm, ⟨14, _⟩ => ⟨S_, .i32⟩
  | .hbm, ⟨15, _⟩ => ⟨S999999, .i32⟩
  | .hbm, ⟨16, _⟩ => ⟨S999999, .i32⟩
  | .hbm, ⟨17, _⟩ => ⟨S999999, .i32⟩
  | .hbm, ⟨18, _⟩ => ⟨S999999x1, .i32⟩
  | .hbm, ⟨19, _⟩ => ⟨S999999x128, .f32⟩
  | .hbm, ⟨20, _⟩ => ⟨S_, .i32⟩
  | .hbm, ⟨21, _⟩ => ⟨S999999, .i32⟩
  | .hbm, ⟨22, _⟩ => ⟨S999999, .i1⟩
  | .hbm, ⟨23, _⟩ => ⟨S_, .i32⟩
  | .hbm, ⟨24, _⟩ => ⟨S999999, .i32⟩
  | .hbm, ⟨25, _⟩ => ⟨S999999, .i32⟩
  | .hbm, ⟨26, _⟩ => ⟨S999999, .i32⟩
  | .hbm, ⟨27, _⟩ => ⟨S999999x1, .i32⟩
  | .hbm, ⟨28, _⟩ => ⟨S999999x128, .f32⟩
  | .hbm, ⟨29, _⟩ => ⟨S999999x256, .f32⟩
  | .hbm, ⟨30, _⟩ => ⟨S999999x64, .f32⟩
  | .hbm, ⟨31, _⟩ => ⟨S1x64, .f32⟩
  | .hbm, ⟨32, _⟩ => ⟨S999999x64, .f32⟩
  | .hbm, ⟨33, _⟩ => ⟨S999999x64, .f32⟩
  | .hbm, ⟨34, _⟩ => ⟨S_, .f32⟩
  | .hbm, ⟨35, _⟩ => ⟨S999999x64, .f32⟩
  | .hbm, ⟨36, _⟩ => ⟨S999999x64, .f32⟩
  | .hbm, ⟨37, _⟩ => ⟨S999999x1, .f32⟩
  | .hbm, ⟨38, _⟩ => ⟨S1x1, .f32⟩
  | .hbm, ⟨39, _⟩ => ⟨S999999x1, .f32⟩
  | .hbm, ⟨40, _⟩ => ⟨S999999x1, .f32⟩
  | .hbm, ⟨41, _⟩ => ⟨S_, .f32⟩
  | .hbm, ⟨42, _⟩ => ⟨S999999x1, .f32⟩
  | .hbm, ⟨43, _⟩ => ⟨S999999x1, .f32⟩
  | .hbm, ⟨44, _⟩ => ⟨S_, .f32⟩
  | .hbm, ⟨45, _⟩ => ⟨S999999x1, .f32⟩
  | .hbm, ⟨46, _⟩ => ⟨S999999x1, .f32⟩
  | .hbm, ⟨47, _⟩ => ⟨S999999x1, .f32⟩
  | .hbm, ⟨48, _⟩ => ⟨S999999x1, .f32⟩
  | .hbm, ⟨49, _⟩ => ⟨S999999x1, .f32⟩
  | .hbm, ⟨50, _⟩ => ⟨S999999x1, .f32⟩
  | .hbm, ⟨51, _⟩ => ⟨S999999x1, .f32⟩
  | .hbm, ⟨52, _⟩ => ⟨S_, .f32⟩
  | .hbm, ⟨53, _⟩ => ⟨S999999x1, .f32⟩
  | .hbm, ⟨54, _⟩ => ⟨S999999x1, .f32⟩
  | .hbm, ⟨55, _⟩ => ⟨S999999x1, .f32⟩
  | .hbm, ⟨56, _⟩ => ⟨S999999x1, .f32⟩
  | .hbm, ⟨57, _⟩ => ⟨S_, .f32⟩
  | .hbm, ⟨58, _⟩ => ⟨S999999x1, .f32⟩
  | .hbm, ⟨59, _⟩ => ⟨S999999x1, .f32⟩
  | .hbm, ⟨60, _⟩ => ⟨S_, .f32⟩
  | .hbm, ⟨61, _⟩ => ⟨S999999x1, .f32⟩
  | .hbm, ⟨62, _⟩ => ⟨S999999x1, .f32⟩
  | .hbm, ⟨63, _⟩ => ⟨S999999, .f32⟩
  | .hbm, ⟨64, _⟩ => ⟨S1999998, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  slices_S2x2000000_S1x999999_0_0 : S2x2000000.Slices ![0, 0] S1x999999
  shapeCasts_S1x999999_S999999 : S1x999999.ShapeCasts S999999
  slices_S2x2000000_S1x999999_1_0 : S2x2000000.Slices ![1, 0] S1x999999
  bcast_S_S999999 : S_.BroadcastsInDim S999999 (![] : Fin 0 → Fin S999999.rank)
  bcast_S999999_S999999x1_0 : S999999.BroadcastsInDim S999999x1 (![0] : Fin 1 → Fin S999999x1.rank)
  concatenates_S999999x128_S999999x128_S999999x256_d1 : Shape.Concatenates [S999999x128, S999999x128] S999999x256 1
  bcast_S64_S1x64_1 : S64.BroadcastsInDim S1x64 (![1] : Fin 1 → Fin S1x64.rank)
  bcast_S1x64_S999999x64_0_1 : S1x64.BroadcastsInDim S999999x64 (![0, 1] : Fin 2 → Fin S999999x64.rank)
  bcast_S_S999999x64 : S_.BroadcastsInDim S999999x64 (![] : Fin 0 → Fin S999999x64.rank)
  bcast_S1_S1x1_1 : S1.BroadcastsInDim S1x1 (![1] : Fin 1 → Fin S1x1.rank)
  bcast_S1x1_S999999x1_0_1 : S1x1.BroadcastsInDim S999999x1 (![0, 1] : Fin 2 → Fin S999999x1.rank)
  bcast_S_S999999x1 : S_.BroadcastsInDim S999999x1 (![] : Fin 0 → Fin S999999x1.rank)
  shapeCasts_S999999x1_S999999 : S999999x1.ShapeCasts S999999
  concatenates_S999999_S999999_S1999998_d0 : Shape.Concatenates [S999999, S999999] S1999998 0
  gather_S100000x128_S999999x1_S999999x128_1_0_n_n_0_1_1128_wf : GatherDims.WF S100000x128 S999999x1 S999999x128 [1] [0] [] [0] [] 1 ![1, 128]
  dot_S999999x256_S256x64_S999999x64_1_0_0_1_n_n_wf : DotDims.WF S999999x256 S256x64 S999999x64 [1] [0] [0] [1] [] []
  dot_S999999x64_S64x1_S999999x1_1_0_0_1_n_n_wf : DotDims.WF S999999x64 S64x1 S999999x1 [1] [0] [0] [1] [] []

variable [Facts₀]

def gather_S100000x128_S999999x1_S999999x128_1_0_n_n_0_1_1128 : GatherDims S100000x128 S999999x1 S999999x128 where
  offsetDims := [1]
  collapsedSliceDims := [0]
  operandBatchingDims := []
  startIndicesBatchingDims := []
  startIndexMap := [0]
  indexVectorDim := 1
  sliceSizes := ![1, 128]
  wf := gather_S100000x128_S999999x1_S999999x128_1_0_n_n_0_1_1128_wf
def dot_S999999x256_S256x64_S999999x64_1_0_0_1_n_n : DotDims S999999x256 S256x64 S999999x64 where
  lhsContracting := [1]
  rhsContracting := [0]
  lhsNonContracting := [0]
  rhsNonContracting := [1]
  lhsBatch := []
  rhsBatch := []
  wf := dot_S999999x256_S256x64_S999999x64_1_0_0_1_n_n_wf
def dot_S999999x64_S64x1_S999999x1_1_0_0_1_n_n : DotDims S999999x64 S64x1 S999999x1 where
  lhsContracting := [1]
  rhsContracting := [0]
  lhsNonContracting := [0]
  rhsNonContracting := [1]
  lhsBatch := []
  rhsBatch := []
  wf := dot_S999999x64_S64x1_S999999x1_1_0_0_1_n_n_wf

class Facts : Prop extends Facts₀ where

variable [Facts]
-- ==== Proof.EdgeGate.lean ====
/-
  The weight of one edge, and the array of all of them.

  Edge `e` joins the nodes whose row numbers are `edge_index[0, e]` and `edge_index[1, e]`. A row number is read the
  way numpy reads it: a negative one counts from the end of the table's 100000 rows (`wrapRow`), and the row read is
  that number as a signed integer, kept inside the table (`rowOf`). The two endpoint rows of the embedding table are
  each multiplied into their half of the first layer's weights (rows 0..127 of `W1` for the source, rows 128..255 for
  the destination); hidden unit `j` is the positive part of the two products' sum plus the bias, the logit is the
  hidden row against the second layer's column plus its bias, and the weight is the logistic function of the gate's
  input (from the edge's uniform draw) plus the logit.
-/
import Idealize.ShloMosaic.PureOps.Ideal
import Idealize.ShloMosaic.PureOps.Ideal.Laws
import Idealize.ShloMosaic.Lib.ValueIdx

noncomputable section

namespace Cert.EdgeGate

open Idealize.ShloMosaic Idealize.ShloMosaic.ValueIdx

/-- The gate's input from the uniform draw `u`: with `eps = c₁ · u + c₂` (the two f32 constants both programs carry),
    `log eps - log (1 + (-eps))`. -/
def gateIn (u : EReal) : EReal :=
  Ideal.log (Ideal.ofBits .f32 0xBF7FF2E5#32 * u + Ideal.ofBits .f32 0x3F7FF972#32)
    - Ideal.log1p (-(Ideal.ofBits .f32 0xBF7FF2E5#32 * u + Ideal.ofBits .f32 0x3F7FF972#32))

/-- One edge's weight from its two projected endpoint rows `p`, `q`, its draw `u`, and the layers' parameters. -/
def edgeWeight (p q : Fin 64 → EReal) (u : EReal) (b₁ w₂ : Fin 64 → EReal) (b₂ : EReal) : EReal :=
  Ideal.logistic (gateIn u + ((∑ j : Fin 64, max (p j + q j + b₁ j) 0 * w₂ j) + b₂))

/-- numpy's reading of a row number of a 100000-row table: a negative one counts from the end. -/
def wrapRow (x : BitVec 32) : BitVec 32 :=
  Scalar.select (IntOp.cmpi .slt x 0#32) (IntOp.addi x 100000#32) x

/-- The row a row number reads: the wrapped number as a signed integer, kept inside the table. -/
def rowOf (x : BitVec 32) : Fin 100000 := ⟨min (wrapRow x).toInt.toNat 99999, by omega⟩

/-- A row number that is in range of a 100000-row table, in numpy's sense. -/
def InRange (x : BitVec 32) : Prop := -100000 ≤ x.toInt ∧ x.toInt < 100000

/-- Endpoint `a` (0 the source, 1 the destination) of edge `e`, among the 999999 edges that are used. -/
def endpoint (ei : (⟨2, ![2, 2000000]⟩ : Shape).Idx → BitVec 32) (a : Fin 2) (e : Fin 999999) : BitVec 32 :=
  ei (ix2 a (⟨e.val, by omega⟩ : Fin 2000000))

/-- Row `r` of the embedding table against the columns of one half of the first layer's weights (rows
    `off .. off + 127` of `W1`). -/
def halfProj (ne : (⟨2, ![100000, 128]⟩ : Shape).Idx → EReal) (W1 : (⟨2, ![256, 64]⟩ : Shape).Idx → EReal)
    (off : ℕ) (hoff : off + 128 ≤ 256) (r : Fin 100000) : Fin 64 → EReal :=
  fun j => ∑ k : Fin 128, ne (ix2 r k) * W1 (ix2 (⟨off + k.val, by omega⟩ : Fin 256) j)

/-- The weights of the 999999 edges that are used, from the seven arguments. -/
def weights (ne : (⟨2, ![100000, 128]⟩ : Shape).Idx → EReal) (ei : (⟨2, ![2, 2000000]⟩ : Shape).Idx → BitVec 32)
    (er : (⟨2, ![999999, 1]⟩ : Shape).Idx → EReal) (W1 : (⟨2, ![256, 64]⟩ : Shape).Idx → EReal)
    (b1 : (⟨1, ![64]⟩ : Shape).Idx → EReal) (W2 : (⟨2, ![64, 1]⟩ : Shape).Idx → EReal)
    (b2 : (⟨1, ![1]⟩ : Shape).Idx → EReal) : (⟨1, ![999999]⟩ : Shape).Idx → EReal :=
  fun e => edgeWeight (halfProj ne W1 0 (by omega) (rowOf (endpoint ei 0 (e 0))))
    (halfProj ne W1 128 (by omega) (rowOf (endpoint ei 1 (e 0))))
    (er (ix2 (e 0) (0 : Fin 1))) (fun j => b1 (ix1 j)) (fun j => W2 (ix2 j (0 : Fin 1))) (b2 (ix1 (0 : Fin 1)))

/-- Two copies of a 999999-vector joined end to end stay inside a 1999998-vector. -/
theorem twice_ok : Shape.Concatenates [(⟨1, ![999999]⟩ : Shape), ⟨1, ![999999]⟩] ⟨1, ![1999998]⟩ 0 := by decide

/-- The edge weights twice over, end to end: the values of the symmetric adjacency (each edge in both directions). -/
def twice (v : (⟨1, ![999999]⟩ : Shape).Idx → EReal) : (⟨1, ![1999998]⟩ : Shape).Idx → EReal :=
  concatenate ⟨1, ![1999998]⟩ 0 [⟨⟨1, ![999999]⟩, v⟩, ⟨⟨1, ![999999]⟩, v⟩] twice_ok

end Cert.EdgeGate

end
-- ==== Proof.InRange.lean ====
/-
  The precondition's last conjunct, read back: every row number the programs use is in range.
-/
import proofs.«424438_j83640193122891_2_alg».proof.Pre_finite_inputs
import proofs.«424438_j83640193122891_2_alg».proof.Proof.Gen.Pre_finite_inputs
import proofs.«424438_j83640193122891_2_alg».proof.Proof.EdgeGate
import Idealize.ShloMosaic.Lib.ReduceAll
import Idealize.ShloMosaic.Lib.StableHlo.Predicate
import Idealize.ShloMosaic.Lib.Pipeline.Value
import Idealize.ShloMosaic.Lib.ValueIdx

noncomputable section

namespace Cert.InRange

open Idealize.ShloMosaic Idealize.ShloMosaic.ValueIdx Cert.EdgeGate

/-- The scalar shape has one index. -/
instance : Subsingleton Cert.Pre_finite_inputs.S_.Idx := ⟨fun a b => funext fun d => d.elim0⟩

/-- The precondition is a conjunction whose last conjunct says: every element of the first 999999 columns of the two
    rows of row numbers is at least -100000 and below 100000. -/
theorem last_conjunct {F : FTy → Type} [FloatOps F]
    (a0 : FVec F Cert.Pre_finite_inputs.S100000x128 .f32) (a1 : IVec Cert.Pre_finite_inputs.S2x2000000 32)
    (a2 : FVec F Cert.Pre_finite_inputs.S999999x1 .f32) (a3 : FVec F Cert.Pre_finite_inputs.S256x64 .f32)
    (a4 : FVec F Cert.Pre_finite_inputs.S64 .f32) (a5 : FVec F Cert.Pre_finite_inputs.S64x1 .f32)
    (a6 : FVec F Cert.Pre_finite_inputs.S1 .f32)
    (h : Cert.Pre_finite_inputs.fn (F := F) a0 a1 a2 a3 a4 a5 a6 = fun _ => 1#1) :
    Host.reduce IntOp.andi
      (andi
        (cmpi .sge
          (extractStridedSlice Cert.Pre_finite_inputs.S2x999999 ![0, 0] a1
            Cert.Pre_finite_inputs.Facts.slices_S2x2000000_S2x999999_0_0)
          (broadcastInDim Cert.Pre_finite_inputs.S2x999999 ![] Cert.Pre_finite_inputs.Facts.bcast_S_S2x999999
            (constantI Cert.Pre_finite_inputs.S_ 32 4294867296#32)))
        (cmpi .slt
          (extractStridedSlice Cert.Pre_finite_inputs.S2x999999 ![0, 0] a1
            Cert.Pre_finite_inputs.Facts.slices_S2x2000000_S2x999999_0_0)
          (broadcastInDim Cert.Pre_finite_inputs.S2x999999 ![] Cert.Pre_finite_inputs.Facts.bcast_S_S2x999999
            (constantI Cert.Pre_finite_inputs.S_ 32 100000#32))))
      (constantI Cert.Pre_finite_inputs.S_ 1 1#1)
      Cert.Pre_finite_inputs.Facts.reducesTo_S2x999999_S_d0_1 Cert.Pre_finite_inputs.Facts.h_S_ ix0 = 1#1 :=
  (IntOp.andi_eq_one.1 (congrFun h ix0)).2

/-- Where the precondition holds, both endpoints of every used edge are row numbers in range. -/
theorem inRange_of_pre {F : FTy → Type} [FloatOps F]
    (a0 : FVec F Cert.Pre_finite_inputs.S100000x128 .f32) (a1 : IVec Cert.Pre_finite_inputs.S2x2000000 32)
    (a2 : FVec F Cert.Pre_finite_inputs.S999999x1 .f32) (a3 : FVec F Cert.Pre_finite_inputs.S256x64 .f32)
    (a4 : FVec F Cert.Pre_finite_inputs.S64 .f32) (a5 : FVec F Cert.Pre_finite_inputs.S64x1 .f32)
    (a6 : FVec F Cert.Pre_finite_inputs.S1 .f32)
    (h : Cert.Pre_finite_inputs.fn (F := F) a0 a1 a2 a3 a4 a5 a6 = fun _ => 1#1) (a : Fin 2) (e : Fin 999999) :
    InRange (endpoint a1 a e) := by
  have hall := Host.reduce_andi_all _ _ _ _ ix0 (last_conjunct a0 a1 a2 a3 a4 a5 a6 h)
    (ix2 a e : Cert.Pre_finite_inputs.S2x999999.Idx)
  obtain ⟨hge, hlt⟩ := IntOp.andi_eq_one.1 hall
  -- the slice at (a, e) is the array at (a, e)
  have hS : extractStridedSlice Cert.Pre_finite_inputs.S2x999999 ![0, 0] a1
      Cert.Pre_finite_inputs.Facts.slices_S2x2000000_S2x999999_0_0 (ix2 a e) = endpoint a1 a e :=
    extractStridedSlice_apply ![0, 0] a1 Cert.Pre_finite_inputs.Facts.slices_S2x2000000_S2x999999_0_0 (ix2 a e)
      (ix2 a (⟨e.val, by omega⟩ : Fin 2000000)) (fun b => match b with
        | ⟨0, _⟩ => by show a.val = 0 + a.val; omega
        | ⟨1, _⟩ => by show e.val = 0 + e.val; omega)
  -- a broadcast scalar reads the scalar
  have hb : ∀ c : BitVec 32, broadcastInDim Cert.Pre_finite_inputs.S2x999999 ![]
      Cert.Pre_finite_inputs.Facts.bcast_S_S2x999999 (constantI Cert.Pre_finite_inputs.S_ 32 c) (ix2 a e) = c :=
    fun c => broadcastInDim_apply _ _ _ (ix2 a e) ix0 (fun b => b.elim0)
  have hge' : IntOp.cmpi .sge (extractStridedSlice Cert.Pre_finite_inputs.S2x999999 ![0, 0] a1
      Cert.Pre_finite_inputs.Facts.slices_S2x2000000_S2x999999_0_0 (ix2 a e))
      (broadcastInDim Cert.Pre_finite_inputs.S2x999999 ![] Cert.Pre_finite_inputs.Facts.bcast_S_S2x999999
        (constantI Cert.Pre_finite_inputs.S_ 32 4294867296#32) (ix2 a e)) = 1#1 := hge
  have hlt' : IntOp.cmpi .slt (extractStridedSlice Cert.Pre_finite_inputs.S2x999999 ![0, 0] a1
      Cert.Pre_finite_inputs.Facts.slices_S2x2000000_S2x999999_0_0 (ix2 a e))
      (broadcastInDim Cert.Pre_finite_inputs.S2x999999 ![] Cert.Pre_finite_inputs.Facts.bcast_S_S2x999999
        (constantI Cert.Pre_finite_inputs.S_ 32 100000#32) (ix2 a e)) = 1#1 := hlt
  rw [hS, hb] at hge' hlt'
  -- the two words as signed integers
  have hm : (4294867296#32 : BitVec 32).toInt = -100000 := by decide
  have hk : (100000#32 : BitVec 32).toInt = 100000 := by decide
  have h1 := IntOp.cmpi_sge.1 hge'
  have h2 := IntOp.cmpi_slt.1 hlt'
  rw [hm] at h1
  rw [hk] at h2
  exact ⟨h1, h2⟩

/-- A row number in range, once wrapped, is a row of the table: it passes the test `0 ≤ · ≤ 99999`. -/
theorem wrapRow_test {x : BitVec 32} (h : InRange x) :
    IntOp.andi (IntOp.cmpi .sge (wrapRow x) 0#32) (IntOp.cmpi .sle (wrapRow x) 99999#32) = 1#1 := by
  obtain ⟨h1, h2⟩ := h
  have h0 : (0#32 : BitVec 32).toInt = 0 := by decide
  have h9 : (99999#32 : BitVec 32).toInt = 99999 := by decide
  rw [IntOp.andi_eq_one, IntOp.cmpi_sge, IntOp.cmpi_sle, h0, h9]
  unfold wrapRow
  by_cases hneg : x.toInt < 0
  · have hc : IntOp.cmpi .slt x 0#32 = 1#1 := IntOp.cmpi_slt.mpr (by rw [h0]; exact hneg)
    rw [hc, select_one]
    have hadd : (IntOp.addi x 100000#32).toInt = x.toInt + 100000 := by
      unfold IntOp.addi
      rw [BitVec.toInt_add]
      have hk : (100000#32 : BitVec 32).toInt = 100000 := by decide
      rw [hk, Int.bmod_eq_of_le_mul_two (by push_cast; omega) (by push_cast; omega)]
    rw [hadd]
    omega
  · have hc : IntOp.cmpi .slt x 0#32 = 0#1 :=
      eq_zero_of_ne_one (fun hh => hneg (by have := IntOp.cmpi_slt.mp hh; rwa [h0] at this))
    rw [hc, select_zero]
    omega

end Cert.InRange

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«424438_j83640193122891_2_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.LibGatherRows.lean ====
/-
  A row gather read at an index.

  `x[idx]` of a table `x : [N, C]` at a column of row numbers `idx : [n, 1]` lowers to a `stablehlo.gather` with
  offset axis 1, collapsed axis 0, the start index naming axis 0, and slices of one whole row. Result element
  `(t, j)` is the table at column `j` of the row whose number is `idx[t, 0]`, read as a signed integer and kept inside
  the table (every start index of a gather is clamped so that its slice fits).
-/
import Idealize.ShloMosaic.PureOps
import Idealize.ShloMosaic.Lib.ValueIdx

noncomputable section

namespace Cert.Lib

open Idealize.ShloMosaic Idealize.ShloMosaic.ValueIdx

/-- The dimension numbers of a gather of whole rows of an `[N, C]` table at an `[n, 1]` column of row numbers. -/
abbrev rowsDims (N C n : ℕ)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, j)`: column `j` of the row numbered `idx[t, 0]`, read signed and clamped into `[0, N - 1]`. -/
theorem gather_rows_apply {α : Type} {N C n w : ℕ} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (t : Fin n) (j : Fin C) :
    Host.gather (rowsDims N C n wf) x idx (ix2 t j)
      = x (ix2 (⟨min (idx (ix2 t (0 : Fin 1))).toInt.toNat (N - 1), by omega⟩ : Fin N) j) := by
  unfold Host.gather
  congr 1
  funext a
  refine Fin.ext ?_
  match a with
  | ⟨0, _⟩ =>
    show (rowsDims N C n wf).start (ix2 t j) idx 0 + (rowsDims N C n wf).batchCoord (ix2 t j) 0
      + (rowsDims N C n wf).offCoord (ix2 t j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C n wf).startIndexMap from List.mem_singleton.mpr rfl)]
    have hsi : (rowsDims N C n wf).siIdx (ix2 t j) ⟨List.idxOf (0 : Fin 2) (rowsDims N C n wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (rowsDims N C n wf).start (ix2 t j) idx 1 + (rowsDims N C n wf).batchCoord (ix2 t j) 1
      + (rowsDims N C n wf).offCoord (ix2 t j) 1 = _
    rw [GatherDims.batchCoord_eq_zero _ _ _ List.not_mem_nil]
    unfold GatherDims.start
    rw [dif_neg (show (1 : Fin 2) ∉ (rowsDims N C n wf).startIndexMap from (by decide : (1 : Fin 2) ∉ ([0] : List (Fin 2))))]
    simp only [Nat.add_zero, Nat.zero_add]
    unfold GatherDims.offCoord
    rw [dif_pos (show (1 : Fin 2) ∈ (rowsDims N C n wf).sKept from (GatherDims.mem_sKept _ _).mpr
      ⟨(by decide : (1 : Fin 2) ∉ ([0] : List (Fin 2))), List.not_mem_nil⟩)]
    rfl

end Cert.Lib

end
-- ==== Proof.RefSide.lean ====
/-
  The reference program's edge weights, read one index at a time.

  The reference computes, for edge `e`, the logistic function of the gate's input plus the logit of a two-layer
  network on the two endpoint rows of the embedding table laid side by side. Read at an index, each step is a
  pointwise fact: the row numbers are wrapped and the rows gathered (clamped into the table), the joined row against
  the first layer's weights is the sum of the two halves' products, the positive part is taken against zero, the
  second layer is one more sum, and the sigmoid is spelled `1 / (1 + exp (-(x / 1)))`.
-/
import proofs.«424438_j83640193122891_2_alg».proof.Proof.Gen.ReferenceIdeal.Run
import proofs.«424438_j83640193122891_2_alg».proof.Proof.Gen.ReferenceIdeal.Read
import proofs.«424438_j83640193122891_2_alg».proof.Proof.EdgeGate
import proofs.«424438_j83640193122891_2_alg».proof.Proof.LibRowOps
import proofs.«424438_j83640193122891_2_alg».proof.Proof.LibGatherRows
import Idealize.ShloMosaic.Lib.Pipeline.Value
import Idealize.ShloMosaic.Lib.ValueIdx
import Idealize.ShloMosaic.Lib.IdealHost
import Idealize.ShloMosaic.PureOps.Ideal.Laws

noncomputable section

namespace Cert.RefSide

open Idealize.ShloMosaic Idealize.ShloMosaic.ValueIdx Cert.ReferenceIdeal Cert.ReferenceIdeal.Gen
open Cert.ReferenceIdeal.Read Cert.EdgeGate

/-- Dividing by one changes nothing. -/
theorem ideal_div_one (x : EReal) : Ideal.div x 1 = x := by
  rw [Ideal.div, if_neg one_ne_zero, ← EReal.coe_one, ← EReal.coe_inv, inv_one, EReal.coe_one, mul_one]

/-- The source row number the first gather reads is the wrapped source endpoint. -/
theorem srcRow (x1 : (⟨S2x2000000, .i32⟩ : BufTy).Contents (Elt Ideal)) (e : Fin 999999) :
    val_main_v9 (F := Ideal) x1 (ix2 e (0 : Fin 1)) = wrapRow (endpoint x1 0 e) := by
  rw [val_main_v9_apply, val_main_v8_apply, val_main_v5_apply, val_main_v7_apply, val_main_v4_apply, val_main_v6_apply,
    val_main_c_apply, val_main_c_0_apply, val_main_v1_apply, val_main_v0_apply]
  have hi : idx_main_v0 (idx_main_v1 (idx_main_v9 (ix2 e (0 : Fin 1)))) = ix2 (0 : Fin 2) (⟨e.val, by omega⟩ : Fin 2000000) := by
    funext a
    match a with
    | ⟨0, _⟩ => rfl
    | ⟨1, _⟩ => exact Fin.ext (Nat.mod_eq_of_lt e.isLt)
  rw [hi]
  rfl

/-- The destination row number the second gather reads is the wrapped destination endpoint. -/
theorem dstRow (x1 : (⟨S2x2000000, .i32⟩ : BufTy).Contents (Elt Ideal)) (e : Fin 999999) :
    val_main_v16 (F := Ideal) x1 (ix2 e (0 : Fin 1)) = wrapRow (endpoint x1 1 e) := by
  rw [val_main_v16_apply, val_main_v15_apply, val_main_v12_apply, val_main_v14_apply, val_main_v11_apply, val_main_v13_apply,
    val_main_c_1_apply, val_main_c_2_apply, val_main_v3_apply, val_main_v2_apply]
  have hi : idx_main_v2 (idx_main_v3 (idx_main_v16 (ix2 e (0 : Fin 1)))) = ix2 (1 : Fin 2) (⟨e.val, by omega⟩ : Fin 2000000) := by
    funext a
    match a with
    | ⟨0, _⟩ => rfl
    | ⟨1, _⟩ => exact Fin.ext (Nat.mod_eq_of_lt e.isLt)
  rw [hi]
  rfl

/-- The first gather at `(e, k)`: column `k` of the source endpoint's row. -/
theorem srcGather (x0 : (⟨S100000x128, .f32⟩ : BufTy).Contents (Elt Ideal)) (x1 : (⟨S2x2000000, .i32⟩ : BufTy).Contents (Elt Ideal))
    (e : Fin 999999) (k : Fin 128) :
    val_main_v10 (F := Ideal) x0 x1 (ix2 e k) = x0 (ix2 (rowOf (endpoint x1 0 e)) k) := by
  unfold val_main_v10
  refine (Cert.Lib.gather_rows_apply (by omega) gather_S100000x128_S999999x1_S999999x128_1_0_n_n_0_1_1128_wf x0
    (val_main_v9 (F := Ideal) x1) e k).trans ?_
  refine congrArg (fun r : Fin 100000 => x0 (ix2 r k)) (Fin.ext ?_)
  show min (val_main_v9 (F := Ideal) x1 (ix2 e (0 : Fin 1))).toInt.toNat (100000 - 1)
    = min (wrapRow (endpoint x1 0 e)).toInt.toNat 99999
  rw [srcRow]

/-- The second gather at `(e, k)`: column `k` of the destination endpoint's row. -/
theorem dstGather (x0 : (⟨S100000x128, .f32⟩ : BufTy).Contents (Elt Ideal)) (x1 : (⟨S2x2000000, .i32⟩ : BufTy).Contents (Elt Ideal))
    (e : Fin 999999) (k : Fin 128) :
    val_main_v17 (F := Ideal) x0 x1 (ix2 e k) = x0 (ix2 (rowOf (endpoint x1 1 e)) k) := by
  unfold val_main_v17
  refine (Cert.Lib.gather_rows_apply (by omega) gather_S100000x128_S999999x1_S999999x128_1_0_n_n_0_1_1128_wf x0
    (val_main_v16 (F := Ideal) x1) e k).trans ?_
  refine congrArg (fun r : Fin 100000 => x0 (ix2 r k)) (Fin.ext ?_)
  show min (val_main_v16 (F := Ideal) x1 (ix2 e (0 : Fin 1))).toInt.toNat (100000 - 1)
    = min (wrapRow (endpoint x1 1 e)).toInt.toNat 99999
  rw [dstRow]

/-- The joined row at a column of its first half is the source endpoint's row at that column. -/
theorem catLeft (x0 : (⟨S100000x128, .f32⟩ : BufTy).Contents (Elt Ideal)) (x1 : (⟨S2x2000000, .i32⟩ : BufTy).Contents (Elt Ideal))
    (e : Fin 999999) (k : Fin 128) :
    val_main_v18 (F := Ideal) x0 x1 (ix2 e (⟨k.val, by omega⟩ : Fin 256)) = val_main_v10 (F := Ideal) x0 x1 (ix2 e k) := by
  unfold val_main_v18
  exact concatenate_pair_apply_left (s₁ := S999999x128) (s₂ := S999999x128) (1 : Fin 2) _ _ concatenates_S999999x128_S999999x128_S999999x256_d1
    (ix2 e (⟨k.val, by omega⟩ : Fin 256)) rfl (ix2 e k)
    (fun b => match b with
      | ⟨0, _⟩ => rfl
      | ⟨1, _⟩ => rfl)

/-- The joined row at a column of its second half is the destination endpoint's row, 128 columns back. -/
theorem catRight (x0 : (⟨S100000x128, .f32⟩ : BufTy).Contents (Elt Ideal)) (x1 : (⟨S2x2000000, .i32⟩ : BufTy).Contents (Elt Ideal))
    (e : Fin 999999) (k : Fin 128) :
    val_main_v18 (F := Ideal) x0 x1 (ix2 e (⟨128 + k.val, by omega⟩ : Fin 256)) = val_main_v17 (F := Ideal) x0 x1 (ix2 e k) := by
  unfold val_main_v18
  exact concatenate_pair_apply_right (s₁ := S999999x128) (s₂ := S999999x128) (1 : Fin 2) _ _ concatenates_S999999x128_S999999x128_S999999x256_d1
    (ix2 e (⟨128 + k.val, by omega⟩ : Fin 256)) rfl rfl (ix2 e k)
    (fun b => match b with
      | ⟨0, _⟩ => fun _ => rfl
      | ⟨1, _⟩ => fun h => absurd rfl h)
    (by show k.val + 128 = 128 + k.val; omega)

/-- The first layer before its bias, at `(e, j)`: the sum over the joined row's 256 columns is the source row against
    the upper half of the weights plus the destination row against the lower half. -/
theorem hiddenPre (x0 : (⟨S100000x128, .f32⟩ : BufTy).Contents (Elt Ideal)) (x1 : (⟨S2x2000000, .i32⟩ : BufTy).Contents (Elt Ideal))
    (x3 : (⟨S256x64, .f32⟩ : BufTy).Contents (Elt Ideal)) (e : Fin 999999) (j : Fin 64) :
    val_main_v19 (F := Ideal) x0 x1 x3 (ix2 e j)
      = halfProj x0 x3 0 (by omega) (rowOf (endpoint x1 0 e)) j
        + halfProj x0 x3 128 (by omega) (rowOf (endpoint x1 1 e)) j := by
  rw [val_main_v19_apply]
  show ∑ k : Fin (128 + 128), val_main_v18 (F := Ideal) x0 x1 (lidx_main_v19 (ix2 e j) k) * x3 (ridx_main_v19 (ix2 e j) k) = _
  rw [Fin.sum_univ_add]
  unfold halfProj
  congr 1
  · refine Finset.sum_congr rfl fun k _ => ?_
    have hl : lidx_main_v19 (ix2 e j) (Fin.castAdd 128 k) = ix2 e (⟨k.val, by omega⟩ : Fin 256) := by
      funext a
      match a with
      | ⟨0, _⟩ => rfl
      | ⟨1, _⟩ => rfl
    have hr : ridx_main_v19 (ix2 e j) (Fin.castAdd 128 k) = ix2 (⟨0 + k.val, by omega⟩ : Fin 256) j := by
      funext a
      match a with
      | ⟨0, _⟩ => exact Fin.ext (Nat.zero_add _).symm
      | ⟨1, _⟩ => rfl
    rw [hl, hr, catLeft, srcGather]
  · refine Finset.sum_congr rfl fun k _ => ?_
    have hl : lidx_main_v19 (ix2 e j) (Fin.natAdd 128 k) = ix2 e (⟨128 + k.val, by omega⟩ : Fin 256) := by
      funext a
      match a with
      | ⟨0, _⟩ => rfl
      | ⟨1, _⟩ => rfl
    have hr : ridx_main_v19 (ix2 e j) (Fin.natAdd 128 k) = ix2 (⟨128 + k.val, by omega⟩ : Fin 256) j := by
      funext a
      match a with
      | ⟨0, _⟩ => rfl
      | ⟨1, _⟩ => rfl
    rw [hl, hr, catRight, dstGather]

/-- Hidden unit `j` of edge `e`: the positive part of the two endpoint rows' products plus the bias. -/
theorem hidden (x0 : (⟨S100000x128, .f32⟩ : BufTy).Contents (Elt Ideal)) (x1 : (⟨S2x2000000, .i32⟩ : BufTy).Contents (Elt Ideal))
    (x3 : (⟨S256x64, .f32⟩ : BufTy).Contents (Elt Ideal)) (x4 : (⟨S64, .f32⟩ : BufTy).Contents (Elt Ideal))
    (e : Fin 999999) (j : Fin 64) :
    val_main_v23 (F := Ideal) x0 x1 x3 x4 (ix2 e j)
      = max (halfProj x0 x3 0 (by omega) (rowOf (endpoint x1 0 e)) j
          + halfProj x0 x3 128 (by omega) (rowOf (endpoint x1 1 e)) j + x4 (ix1 j)) 0 := by
  rw [val_main_v23_apply, val_main_v22_apply, val_main_call0_v0_apply, val_main_call0_cst_apply, val_main_v21_apply,
    val_main_v20_apply, hiddenPre]
  have hb : idx_main_v20 (idx_main_v21 (ix2 e j)) = ix1 j := by
    funext a
    match a with
    | ⟨0, _⟩ => rfl
  rw [hb]
  simp only [Ideal.maximumf_def, Ideal.addf_def, Ideal.ofBits_def, Ideal.ofBits_zero_f32]

/-- The logit of edge `e`: the hidden row against the second layer's column, plus its bias. -/
theorem logit (x0 : (⟨S100000x128, .f32⟩ : BufTy).Contents (Elt Ideal)) (x1 : (⟨S2x2000000, .i32⟩ : BufTy).Contents (Elt Ideal))
    (x3 : (⟨S256x64, .f32⟩ : BufTy).Contents (Elt Ideal)) (x4 : (⟨S64, .f32⟩ : BufTy).Contents (Elt Ideal))
    (x5 : (⟨S64x1, .f32⟩ : BufTy).Contents (Elt Ideal)) (x6 : (⟨S1, .f32⟩ : BufTy).Contents (Elt Ideal)) (e : Fin 999999) :
    val_main_v27 (F := Ideal) x0 x1 x3 x4 x5 x6 (ix2 e (0 : Fin 1))
      = (∑ j : Fin 64, max (halfProj x0 x3 0 (by omega) (rowOf (endpoint x1 0 e)) j
          + halfProj x0 x3 128 (by omega) (rowOf (endpoint x1 1 e)) j + x4 (ix1 j)) 0 * x5 (ix2 j (0 : Fin 1)))
        + x6 (ix1 (0 : Fin 1)) := by
  rw [val_main_v27_apply, val_main_v26_apply, val_main_v25_apply, val_main_v24_apply]
  have h6 : idx_main_v25 (idx_main_v26 (ix2 e (0 : Fin 1))) = ix1 (0 : Fin 1) := by
    funext a
    match a with
    | ⟨0, _⟩ => rfl
  rw [h6]
  simp only [Ideal.addf_def]
  congr 1
  refine Finset.sum_congr rfl fun k _ => ?_
  have hl : lidx_main_v24 (ix2 e (0 : Fin 1)) k = ix2 e k := by
    funext a
    match a with
    | ⟨0, _⟩ => rfl
    | ⟨1, _⟩ => rfl
  have hr : ridx_main_v24 (ix2 e (0 : Fin 1)) k = ix2 k (0 : Fin 1) := by
    funext a
    match a with
    | ⟨0, _⟩ => rfl
    | ⟨1, _⟩ => rfl
  rw [hl, hr, hidden]

/-- The gate's input of edge `e`, from its uniform draw. -/
theorem gate (x2 : (⟨S999999x1, .f32⟩ : BufTy).Contents (Elt Ideal)) (e : Fin 999999) :
    val_main_v35 (F := Ideal) x2 (ix2 e (0 : Fin 1)) = gateIn (x2 (ix2 e (0 : Fin 1))) := by
  rw [val_main_v35_apply, val_main_v32_apply, val_main_v34_apply, val_main_v33_apply, val_main_v31_apply,
    val_main_v29_apply, val_main_v28_apply, val_main_v30_apply, val_main_cst_apply, val_main_cst_3_apply]
  rfl

/-- The reference's result before the final doubling is the array of edge weights. -/
theorem ref_weights (x0 : (⟨S100000x128, .f32⟩ : BufTy).Contents (Elt Ideal)) (x1 : (⟨S2x2000000, .i32⟩ : BufTy).Contents (Elt Ideal))
    (x2 : (⟨S999999x1, .f32⟩ : BufTy).Contents (Elt Ideal)) (x3 : (⟨S256x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) :
    Cert.ReferenceIdeal.Read.val_main_v45 (F := Ideal) x0 x1 x2 x3 x4 x5 x6 = Cert.EdgeGate.weights x0 x1 x2 x3 x4 x5 x6 := by
  funext i
  obtain ⟨e, rfl⟩ : ∃ e : Fin 999999, i = ix1 e := ⟨i 0, eq_ix1 i⟩
  have hi : idx_main_v45 (ix1 e) = ix2 e (0 : Fin 1) := by
    funext a
    match a with
    | ⟨0, _⟩ => exact Fin.ext (Nat.div_one _)
    | ⟨1, _⟩ => rfl
  rw [val_main_v45_apply, hi, val_main_v44_apply, val_main_v43_apply, val_main_v42_apply, val_main_v41_apply,
    val_main_v40_apply, val_main_v39_apply, val_main_v38_apply, val_main_v37_apply, val_main_v36_apply,
    val_main_cst_6_apply, val_main_cst_5_apply, val_main_cst_4_apply, gate, logit]
  simp only [Ideal.hostDivf_def, Ideal.hostUnary_exp_def, Ideal.hostNegf_def, Ideal.negf_def, Ideal.addf_def,
    Ideal.ofBits_def, Ideal.ofBits_one_f32, ideal_div_one]
  rfl

end Cert.RefSide

end
-- ==== Proof.KernelBody.lean ====
/-
  The kernel body's arithmetic at one row of a block.

  The body computes a block of 4096 edge weights at once. Row `r` of the result depends only on row `r` of the two
  projected endpoint blocks, on the draw of row `r`, and on the layers' parameters: it is `edgeWeight` of those.
-/
import proofs.«424438_j83640193122891_2_alg».proof.Proof.Gen.KernelIdeal.Skeleton
import proofs.«424438_j83640193122891_2_alg».proof.Proof.EdgeGate
import proofs.«424438_j83640193122891_2_alg».proof.Proof.LibRowOps
import Idealize.ShloMosaic.Lib.Pipeline.Value
import Idealize.ShloMosaic.Lib.ValueIdx
import Idealize.ShloMosaic.PureOps.Ideal.Laws

noncomputable section

namespace Cert.KernelSide

open Idealize.ShloMosaic Idealize.ShloMosaic.ValueIdx Cert.KernelIdeal Cert.KernelIdeal.Gen Cert.EdgeGate Cert.Lib

/-- The bias vector, viewed as a one-row array and laid down the rows of a block, reads the bias entry. -/
theorem biasRow_apply (b : Vec Ideal S64 .f32) (r : Fin 4096) (j : Fin 64) :
    broadcastTo S4096x64 (shapeCast S1x64 b shapeCasts_S64_S1x64) broadcasts_S1x64_S4096x64 (ix2 r j) = b (ix1 j) := by
  refine (broadcastTo_row_apply (M := 4096) (K := 64) (shapeCast S1x64 b shapeCasts_S64_S1x64) broadcasts_S1x64_S4096x64 r j).trans ?_
  exact shapeCast_apply b shapeCasts_S64_S1x64 _ _ (by
    rw [Shape.rowMajor_val_two, Shape.rowMajor_val_one]
    show j.val = 0 * 64 + j.val
    omega)

/-- The one-entry bias, viewed as a 1×1 array and laid down a column, reads that entry. -/
theorem biasOne_apply (b : Vec Ideal S1 .f32) (r : Fin 4096) :
    broadcastTo S4096x1 (shapeCast S1x1 b shapeCasts_S1_S1x1) broadcasts_S1x1_S4096x1 (ix2 r (0 : Fin 1)) = b (ix1 (0 : Fin 1)) := by
  refine (broadcastTo_row_apply (M := 4096) (K := 1) (shapeCast S1x1 b shapeCasts_S1_S1x1) broadcasts_S1x1_S4096x1 r (0 : Fin 1)).trans ?_
  exact shapeCast_apply b shapeCasts_S1_S1x1 _ _ (by
    rw [Shape.rowMajor_val_two, Shape.rowMajor_val_one]
    rfl)

/-- Row `r` of the body's result is the weight of the edge whose data sit in row `r` of the blocks. -/
theorem pay_apply (x0 x1 : Vec Ideal S4096x64 .f32) (b1 : Vec Ideal S64 .f32) (w2 : Vec Ideal S64x1 .f32)
    (b2 : Vec Ideal S1 .f32) (u : Vec Ideal S4096x1 .f32) (r : Fin 4096) :
    k0_pay1 (F := Ideal) x0 x1 b1 w2 b2 u (ix2 r (0 : Fin 1))
      = edgeWeight (fun j => x0 (ix2 r j)) (fun j => x1 (ix2 r j)) (u (ix2 r (0 : Fin 1)))
          (fun j => b1 (ix1 j)) (fun j => w2 (ix2 j (0 : Fin 1))) (b2 (ix1 (0 : Fin 1))) := by
  unfold k0_pay1 edgeWeight
  show Ideal.logistic (addf (F := Ideal) _ _ (ix2 r (0 : Fin 1))) = Ideal.logistic _
  congr 1
  rw [addf_apply, addf_apply, biasOne_apply]
  congr 1
  · -- the gate's input: the body spells the negation as a difference from the zero word
    unfold gateIn
    rw [subf_apply]
    show Ideal.log (addf (F := Ideal) _ _ (ix2 r (0 : Fin 1))) - Ideal.log1p (subf (F := Ideal) _ _ (ix2 r (0 : Fin 1))) = _
    rw [subf_apply, addf_apply, mulf_apply, broadcast_apply, broadcast_apply, broadcast_apply, shapeCast_self]
    show _ - Ideal.log1p (Ideal.ofBits .f32 0x00000000#32 - _) = _
    rw [Ideal.ofBits_zero_f32, zero_sub]
    rfl
  · -- the logit: the hidden row against the second layer's column
    congr 1
    refine (matmul_plain_zero_apply 4096 64 1 none _ _ (ix2 r (0 : Fin 1))).trans ?_
    refine Finset.sum_congr rfl fun k _ => ?_
    show truncf (F := Ideal) .bf16 _ _ (ix2 r k) * truncf (F := Ideal) .bf16 w2 _ (ix2 k (0 : Fin 1)) = _
    rw [truncf_apply, truncf_apply, maximumf_apply, addf_apply, addf_apply, shapeCast_self, shapeCast_self,
      biasRow_apply, broadcast_apply]
    show max (x0 (ix2 r k) + x1 (ix2 r k) + b1 (ix1 k)) (Ideal.ofBits .f32 0x00000000#32) * _ = _
    rw [Ideal.ofBits_zero_f32]

end Cert.KernelSide

end
-- ==== Proof.KernelArray.lean ====
/-
  From the kernel's blocks to its whole result array.

  The grid has 245 points; point `t` stages rows `4096 t .. 4096 t + 4095` of the two projected endpoint arrays and of
  the (padded) draws, the whole bias vector, the whole second-layer column and its bias, and writes back rows
  `4096 t .. 4096 t + 4095` of the result. So row `n` of the result array is the weight of the edge whose data sit in
  row `n` of the staged arrays, for every `n` below `245 · 4096 = 1003520`: the blocks tile the array.
-/
import proofs.«424438_j83640193122891_2_alg».proof.Proof.Gen.KernelIdeal.Frame
import proofs.«424438_j83640193122891_2_alg».proof.Proof.EdgeGate
import proofs.«424438_j83640193122891_2_alg».proof.Proof.KernelBody
import Idealize.ShloMosaic.Lib.Pipeline.Value
import Idealize.ShloMosaic.Lib.ValueIdx
import Idealize.ShloMosaic.PureOps.Ideal

set_option maxRecDepth 16384

noncomputable section

namespace Cert.KernelSide

open Idealize.ShloMosaic Idealize.ShloMosaic.TcCoe Idealize.SL.Sem Idealize.ShloMosaic.ValueIdx Cert.KernelIdeal Cert.KernelIdeal.Gen Cert.EdgeGate
open Idealize.ShloMosaic.Pipeline (Dat)

/-! ## The geometry of the blocks, for any contents of the arrays -/

/-- The weight in row `n` of the result array, from the six staged arrays: of the edge whose data sit in their row `n`. -/
def rowWeight (P Q : S1003520x64.Idx → EReal) (U : S1003520x1.Idx → EReal) (B1 : S64.Idx → EReal)
    (W2 : S64x1.Idx → EReal) (B2 : S1.Idx → EReal) (n : ℕ) (hn : n < 1003520) : EReal :=
  edgeWeight (fun j => P (ix2 (⟨n, hn⟩ : Fin 1003520) j)) (fun j => Q (ix2 (⟨n, hn⟩ : Fin 1003520) j))
    (U (ix2 (⟨n, hn⟩ : Fin 1003520) (0 : Fin 1))) (fun j => B1 (ix1 j)) (fun j => W2 (ix2 j (0 : Fin 1))) (B2 (ix1 (0 : Fin 1)))

/-- The whole result array of the region, from the six staged arrays. -/
def resultArr (P Q : S1003520x64.Idx → EReal) (U : S1003520x1.Idx → EReal) (B1 : S64.Idx → EReal)
    (W2 : S64x1.Idx → EReal) (B2 : S1.Idx → EReal) : S1003520x1.Idx → EReal :=
  fun i => rowWeight P Q U B1 W2 B2 (i 0).val (idx2_lt0 i)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the three row-blocked inputs and the output are at block row `t`,
    the parameters at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 245 := lt_of_lt_of_eq t.isLt N_0

/-! Row `r` of point `t`'s block of a row-blocked array is row `4096 t + r` of the array; every point's block of a
    parameter array is the whole array. -/

theorem read0 (A : S1003520x64.Idx → EReal) (t : Fin cfg0.N) (r : Fin 4096) (j : Fin 64) :
    ((cfg0.win 0).blk t).view.read (Elt Ideal) A (ix2 r j) = A (ix2 (⟨t.val * 4096 + r.val, by have := point_lt t; omega⟩ : Fin 1003520) j) := by
  show A (((cfg0.win 0).blk t).view.emb (ix2 r j)) = _
  refine congrArg A ?_
  obtain ⟨e0, e1, -⟩ := idx_facts t
  funext a; apply Fin.ext
  match a with
  | ⟨0, _⟩ => show win0_0.index t (0 : Fin 2) * 4096 + 1 * r.val = t.val * 4096 + r.val; omega
  | ⟨1, _⟩ => show win0_0.index t (1 : Fin 2) * 64 + 1 * j.val = j.val; omega

theorem read1 (A : S1003520x64.Idx → EReal) (t : Fin cfg0.N) (r : Fin 4096) (j : Fin 64) :
    ((cfg0.win 1).blk t).view.read (Elt Ideal) A (ix2 r j) = A (ix2 (⟨t.val * 4096 + r.val, by have := point_lt t; omega⟩ : Fin 1003520) j) := by
  show A (((cfg0.win 1).blk t).view.emb (ix2 r j)) = _
  refine congrArg A ?_
  obtain ⟨-, -, e0, e1, -⟩ := idx_facts t
  funext a; apply Fin.ext
  match a with
  | ⟨0, _⟩ => show win0_1.index t (0 : Fin 2) * 4096 + 1 * r.val = t.val * 4096 + r.val; omega
  | ⟨1, _⟩ => show win0_1.index t (1 : Fin 2) * 64 + 1 * j.val = j.val; omega

theorem read2 (A : S1003520x1.Idx → EReal) (t : Fin cfg0.N) (r : Fin 4096) :
    ((cfg0.win 2).blk t).view.read (Elt Ideal) A (ix2 r (0 : Fin 1)) = A (ix2 (⟨t.val * 4096 + r.val, by have := point_lt t; omega⟩ : Fin 1003520) (0 : Fin 1)) := by
  show A (((cfg0.win 2).blk t).view.emb (ix2 r (0 : Fin 1))) = _
  refine congrArg A ?_
  obtain ⟨-, -, -, -, e0, e1, -⟩ := idx_facts t
  funext a; apply Fin.ext
  match a with
  | ⟨0, _⟩ => show win0_2.index t (0 : Fin 2) * 4096 + 1 * r.val = t.val * 4096 + r.val; omega
  | ⟨1, _⟩ => show win0_2.index t (1 : Fin 2) * 1 + 1 * 0 = 0; omega

theorem read3 (A : S64.Idx → EReal) (t : Fin cfg0.N) (j : Fin 64) :
    ((cfg0.win 3).blk t).view.read (Elt Ideal) A (ix1 j) = A (ix1 j) := by
  show A (((cfg0.win 3).blk t).view.emb (ix1 j)) = _
  refine congrArg A ?_
  obtain ⟨-, -, -, -, -, -, e0, -⟩ := idx_facts t
  funext a; apply Fin.ext
  match a with
  | ⟨0, _⟩ => show win0_3.index t (0 : Fin 1) * 64 + 1 * j.val = j.val; omega

theorem read4 (A : S64x1.Idx → EReal) (t : Fin cfg0.N) (j : Fin 64) :
    ((cfg0.win 4).blk t).view.read (Elt Ideal) A (ix2 j (0 : Fin 1)) = A (ix2 j (0 : Fin 1)) := by
  show A (((cfg0.win 4).blk t).view.emb (ix2 j (0 : Fin 1))) = _
  refine congrArg A ?_
  obtain ⟨-, -, -, -, -, -, -, e0, e1, -⟩ := idx_facts t
  funext a; apply Fin.ext
  match a with
  | ⟨0, _⟩ => show win0_4.index t (0 : Fin 2) * 64 + 1 * j.val = j.val; omega
  | ⟨1, _⟩ => show win0_4.index t (1 : Fin 2) * 1 + 1 * 0 = 0; omega

theorem read5 (A : S1.Idx → EReal) (t : Fin cfg0.N)  :
    ((cfg0.win 5).blk t).view.read (Elt Ideal) A (ix1 (0 : Fin 1)) = A (ix1 (0 : Fin 1)) := by
  show A (((cfg0.win 5).blk t).view.emb (ix1 (0 : Fin 1))) = _
  refine congrArg A ?_
  obtain ⟨-, -, -, -, -, -, -, -, -, e0, -⟩ := idx_facts t
  funext a; apply Fin.ext
  match a with
  | ⟨0, _⟩ => show win0_5.index t (0 : Fin 1) * 1 + 1 * 0 = 0; omega

/-- Row `r` of point `t`'s block of the result array is its row `4096 t + r`. -/
theorem emb6 (t : Fin cfg0.N) (r : Fin 4096) :
    ((cfg0.win 6).blk t).view.emb (ix2 r (0 : Fin 1)) = ix2 (⟨t.val * 4096 + r.val, by have := point_lt t; omega⟩ : Fin 1003520) (0 : Fin 1) := by
  obtain ⟨-, -, -, -, -, -, -, -, -, -, e0, e1⟩ := idx_facts t
  funext a; apply Fin.ext
  match a with
  | ⟨0, _⟩ => show win0_6.index t (0 : Fin 2) * 4096 + 1 * r.val = t.val * 4096 + r.val; omega
  | ⟨1, _⟩ => show win0_6.index t (1 : Fin 2) * 1 + 1 * 0 = 0; omega

/-- Row `r` of what the body leaves, from six blocks of literal shapes: the weight of the edge in their row `r`. -/
theorem out_row (x0 x1 : Vec Ideal S4096x64 .f32) (x2 : Vec Ideal S4096x1 .f32) (x3 : Vec Ideal S64 .f32)
    (x4 : Vec Ideal S64x1 .f32) (x5 : Vec Ideal S1 .f32) (r : Fin 4096) :
    out0_6 (F := Ideal) x0 x1 x2 x3 x4 x5 (ix2 r (0 : Fin 1))
      = edgeWeight (fun j => x0 (ix2 r j)) (fun j => x1 (ix2 r j)) (x2 (ix2 r (0 : Fin 1)))
          (fun j => x3 (ix1 j)) (fun j => x4 (ix2 j (0 : Fin 1))) (x5 (ix1 (0 : Fin 1))) := by
  unfold out0_6
  rw [View.canon_unit_zero hz2]
  simp only [View.ld_unit_zero (S := S4096x64) hz2, View.ld_unit_zero (S := S4096x1) hz2, View.ld_unit_zero (S := S64x1) hz2,
    View.ld_unit_zero (S := S64) hz1, View.ld_unit_zero (S := S1) hz1]
  exact pay_apply x0 x1 x3 x4 x5 x2 r

/-- A block index of a one-column block is a row and column 0. -/
theorem col_row (y : S4096x1.Idx) : ∃ r : Fin 4096, y = ix2 r (0 : Fin 1) :=
  ⟨y 0, (eq_ix2 y).trans (congrArg (ix2 (y 0)) (Fin.ext (by
    have h : (y 1).val < 1 := idx2_lt1 y
    show (y 1).val = 0
    omega)))⟩

/-- WHAT THE BODY LEAVES at point `t`, from the six blocks of any arrays, is block `t` of the result array. -/
theorem out_block (P Q : S1003520x64.Idx → EReal) (U : S1003520x1.Idx → EReal) (B1 : S64.Idx → EReal)
    (W2 : S64x1.Idx → EReal) (B2 : S1.Idx → EReal) (t : Fin cfg0.N) :
    out0_6 (F := Ideal) (((cfg0.win 0).blk t).view.read (Elt Ideal) P) (((cfg0.win 1).blk t).view.read (Elt Ideal) Q)
        (((cfg0.win 2).blk t).view.read (Elt Ideal) U) (((cfg0.win 3).blk t).view.read (Elt Ideal) B1)
        (((cfg0.win 4).blk t).view.read (Elt Ideal) W2) (((cfg0.win 5).blk t).view.read (Elt Ideal) B2)
      = ((cfg0.win 6).blk t).view.read (Elt Ideal) (resultArr P Q U B1 W2 B2) := by
  funext y
  obtain ⟨r, rfl⟩ := col_row y
  refine (out_row _ _ _ _ _ _ r).trans ?_
  show _ = resultArr P Q U B1 W2 B2 (((cfg0.win 6).blk t).view.emb (ix2 r (0 : Fin 1)))
  rw [emb6]
  show edgeWeight _ _ _ _ _ _ = rowWeight P Q U B1 W2 B2 (t.val * 4096 + r.val) _
  unfold rowWeight
  have h0 : (fun j : Fin 64 => ((cfg0.win 0).blk t).view.read (Elt Ideal) P (ix2 r j))
      = fun j => P (ix2 (⟨t.val * 4096 + r.val, by have := point_lt t; omega⟩ : Fin 1003520) j) := funext fun j => read0 P t r j
  have h1 : (fun j : Fin 64 => ((cfg0.win 1).blk t).view.read (Elt Ideal) Q (ix2 r j))
      = fun j => Q (ix2 (⟨t.val * 4096 + r.val, by have := point_lt t; omega⟩ : Fin 1003520) j) := funext fun j => read1 Q t r j
  have h3 : (fun j : Fin 64 => ((cfg0.win 3).blk t).view.read (Elt Ideal) B1 (ix1 j)) = fun j => B1 (ix1 j) :=
    funext fun j => read3 B1 t j
  have h4 : (fun j : Fin 64 => ((cfg0.win 4).blk t).view.read (Elt Ideal) W2 (ix2 j (0 : Fin 1)))
      = fun j => W2 (ix2 j (0 : Fin 1)) := funext fun j => read4 W2 t j
  exact congr (congr (congr (congr (congr (congrArg edgeWeight h0) h1) (read2 U t r)) h3) h4) (read5 B2 t)

/-- Every row of the result array is in the block of the point `row / 4096`. -/
theorem mem_blk6 (t : Fin cfg0.N) (i : S1003520x1.Idx) :
    i ∈ ((cfg0.win 6).blk t).view.set ↔ ∀ a : Fin 2, win0_6.index t a * S4096x1.size a ≤ (i a).val ∧ (i a).val < win0_6.index t a * S4096x1.size a + S4096x1.size a := by
  show i ∈ ((View.whole main_v15).slice (win0_6.rect t)).set ↔ _
  rw [View.set_slice_whole, Rect.mem_set_unit]
  exact Iff.rfl

theorem cover6 (i : S1003520x1.Idx) : ∃ t : Fin cfg0.N, (cfg0.win 6).flush t = true ∧ i ∈ ((cfg0.win 6).blk t).view.set := by
  have hi0 : (i 0).val < 1003520 := idx2_lt0 i
  have hi1 : (i 1).val < 1 := idx2_lt1 i
  refine ⟨⟨(i 0).val / 4096, lt_of_lt_of_eq (by omega : (i 0).val / 4096 < 245) N_0.symm⟩, flush0_6 _, ?_⟩
  rw [mem_blk6]
  obtain ⟨-, -, -, -, -, -, -, -, -, -, e0, e1⟩ := idx_facts ⟨(i 0).val / 4096, lt_of_lt_of_eq (by omega : (i 0).val / 4096 < 245) N_0.symm⟩
  intro a
  match a with
  | ⟨0, _⟩ =>
    show win0_6.index _ (0 : Fin 2) * 4096 ≤ (i 0).val ∧ (i 0).val < win0_6.index _ (0 : Fin 2) * 4096 + 4096
    rw [e0]; show (i 0).val / 4096 * 4096 ≤ (i 0).val ∧ (i 0).val < (i 0).val / 4096 * 4096 + 4096; omega
  | ⟨1, _⟩ =>
    show win0_6.index _ (1 : Fin 2) * 1 ≤ (i 1).val ∧ (i 1).val < win0_6.index _ (1 : Fin 2) * 1 + 1
    rw [e1]; omega

end Cert.KernelSide

end
-- ==== Proof.KernelPrefixTerms.lean ====
/-
  What the kernel program's host operations leave in the three arrays its region reads first.

  Before its one region the program runs nine stretches of host operations. Two of them are the row lookups: every row
  of the embedding table is first multiplied into one half of the first layer's weights (both operands rounded to bf16,
  one matrix product: `projLo` for rows 0..127 of the weights, `projHi` for rows 128..255), and the product's rows are
  then taken at the edge list's row numbers (row 0 of the list for the sources, row 1 for the destinations), padded
  with zeros from 999999 to 1003520 entries (`padIdxLike0`, `padIdxLike`). A lookup (`takeRowsLike`) wraps a negative
  row number from the end, tests the wrapped number against `0 ≤ · ≤ 99999`, gathers the row, and puts the NaN pattern
  where the test fails. The third array is the column of uniform draws padded to 1003520 rows with one half
  (`padDraws`).

  Each array is computed here as a composition of the printed operations over the program's arguments. The stretches
  are run one after the other (`after_append`, `V0_split`); a stretch that does not write a buffer leaves it
  (`after_keep`); and the operations of a module-local function, which move their operands and results along the
  equation between a buffer's type and its value's type, are read at the value's type (`rd`), where the two moves of
  a result that is written and then read cancel (`ofBuf_toBuf`) whatever the buffer is.
-/
import proofs.«424438_j83640193122891_2_alg».proof.Proof.Gen.KernelIdeal.Frame
import Idealize.ShloMosaic.Lib.StableHlo.Run
import Idealize.ShloMosaic.Lib.ValueIdx
import Idealize.ShloMosaic.PureOps.Ideal

set_option maxRecDepth 16384

noncomputable section

namespace Cert.KernelSide

open Idealize.ShloMosaic Idealize.ShloMosaic.TcCoe Idealize.SL.Sem Idealize.ShloMosaic.StableHlo Idealize.ShloMosaic.ValueIdx Cert.KernelIdeal Cert.KernelIdeal.Gen

/-! ## Stretches of operations -/

/-- Operations run one stretch after another are their concatenation run as one. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, after_cons, after_cons, ih]

/-- Reading a reference that a stretch of operations does not write. -/
theorem after_keep {τ : Topo} {sig : RefSig} {Val : EltTy → Type} (ops : List (HloOp τ sig Val)) (V : Valuation τ sig Val)
    (r : Ref sig .tc) (h : ops.Forall fun op => Proc.devRef (τ := τ) .tc r ∉ op.writes) :
    StableHlo.after ops V (Proc.devRef .tc r) = V (Proc.devRef .tc r) :=
  StableHlo.after_of_forall_not_mem ops V (List.forall_iff_forall_mem.mp h)

/-! ## Typed references read at their value's type -/

section TypedRead
variable {τ : Topo} {sig : RefSig} {Val : EltTy → Type} {T Tx Ta Tb Tc Ty : BufTy}

/-- Contents moved to the buffer's type and back are the contents. -/
theorem ofBuf_toBuf (x : TRef sig T) (v : T.Contents Val) : x.ofBuf (x.toBuf v) = v := by
  unfold TRef.ofBuf TRef.toBuf
  rw [cast_cast, cast_eq]

/-- What a typed reference holds under contents `V`, at the reference's value type. -/
def rd (x : TRef sig T) (V : Valuation τ sig Val) : T.Contents Val := x.ofBuf (V (Proc.devRef .tc x.ref))

/-- A constant read at its own reference. -/
theorem nullary_rd (y : TRef sig Ty) (v : Ty.Contents Val) (V : Valuation τ sig Val) :
    rd y ((TRef.nullary (τ := τ) y v).result V) = v := by
  unfold rd TRef.nullary; rw [nullary_result]; exact ofBuf_toBuf y v
/-- A one-operand operation read at its result: the function of the operand's reading. -/
theorem unary_rd (x : TRef sig Tx) (y : TRef sig Ty) (f : Tx.Contents Val → Ty.Contents Val) (V : Valuation τ sig Val) :
    rd y ((TRef.unary (τ := τ) x y f).result V) = f (rd x V) := by
  unfold rd TRef.unary; rw [unary_result]; exact ofBuf_toBuf y _
/-- A two-operand operation read at its result. -/
theorem binary_rd (a : TRef sig Ta) (b : TRef sig Tb) (y : TRef sig Ty) (f : Ta.Contents Val → Tb.Contents Val → Ty.Contents Val)
    (V : Valuation τ sig Val) : rd y ((TRef.binary (τ := τ) a b y f).result V) = f (rd a V) (rd b V) := by
  unfold rd TRef.binary; rw [binary_result]; exact ofBuf_toBuf y _
/-- A three-operand operation read at its result. -/
theorem ternary_rd (c : TRef sig Tc) (a : TRef sig Ta) (b : TRef sig Tb) (y : TRef sig Ty)
    (f : Tc.Contents Val → Ta.Contents Val → Tb.Contents Val → Ty.Contents Val) (V : Valuation τ sig Val) :
    rd y ((TRef.ternary (τ := τ) c a b y f).result V) = f (rd c V) (rd a V) (rd b V) := by
  unfold rd TRef.ternary; rw [ternary_result]; exact ofBuf_toBuf y _

/-- An operation read at a reference other than its result changes nothing: the constant, … -/
theorem nullary_rd_ne (y : TRef sig Ty) (v : Ty.Contents Val) (V : Valuation τ sig Val) (z : TRef sig T) (h : z.ref ≠ y.ref) :
    rd z ((TRef.nullary (τ := τ) y v).result V) = rd z V := by
  unfold rd TRef.nullary; rw [nullary_result_ne _ _ _ _ h]
/-- … the one-operand operation, … -/
theorem unary_rd_ne (x : TRef sig Tx) (y : TRef sig Ty) (f : Tx.Contents Val → Ty.Contents Val) (V : Valuation τ sig Val)
    (z : TRef sig T) (h : z.ref ≠ y.ref) : rd z ((TRef.unary (τ := τ) x y f).result V) = rd z V := by
  unfold rd TRef.unary; rw [unary_result_ne _ _ _ _ _ _ h]
/-- … the two-operand operation, … -/
theorem binary_rd_ne (a : TRef sig Ta) (b : TRef sig Tb) (y : TRef sig Ty) (f : Ta.Contents Val → Tb.Contents Val → Ty.Contents Val)
    (V : Valuation τ sig Val) (z : TRef sig T) (h : z.ref ≠ y.ref) :
    rd z ((TRef.binary (τ := τ) a b y f).result V) = rd z V := by
  unfold rd TRef.binary; rw [binary_result_ne _ _ _ _ _ _ _ _ h]
/-- … and the three-operand operation. -/
theorem ternary_rd_ne (c : TRef sig Tc) (a : TRef sig Ta) (b : TRef sig Tb) (y : TRef sig Ty)
    (f : Tc.Contents Val → Ta.Contents Val → Tb.Contents Val → Ty.Contents Val) (V : Valuation τ sig Val)
    (z : TRef sig T) (h : z.ref ≠ y.ref) : rd z ((TRef.ternary (τ := τ) c a b y f).result V) = rd z V := by
  unfold rd TRef.ternary; rw [ternary_result_ne _ _ _ _ _ _ _ _ _ _ h]

end TypedRead

/-- Closes "no operation of this literal stretch writes this literal reference": each operation writes its one result,
    and two literal references are told apart by computation. -/
macro "not_written" : tactic =>
  `(tactic| (simp only [hostOps0, hostOps0_1, hostOps0_2, hostOps0_3, hostOps0_4, hostOps0_5, hostOps0_6, hostOps0_7, hostOps0_8,
      List.Forall, StableHlo.nullary_writes, StableHlo.unary_writes, StableHlo.binary_writes, StableHlo.ternary_writes,
      StableHlo.quaternary_writes, StableHlo.reshape_writes, StableHlo.binaryIndexed_writes, Finset.mem_singleton]
             repeat' apply And.intro
             all_goals exact StableHlo.devRef_ne_of_ne (by decide)))

/-- Reads a literal stretch of a module-local function's operations at a typed reference: each operation at its own
    result is its function of its operands' readings, and at any other reference changes nothing. -/
macro "rd_results" : tactic =>
  `(tactic| simp (disch := decide) only [hostOps0_1, hostOps0_3, hostOps0_5, hostOps0_7, hostOps0_8, after_cons, after_nil,
      nullary_rd, unary_rd, binary_rd, ternary_rd, nullary_rd_ne, unary_rd_ne, binary_rd_ne, ternary_rd_ne])

variable {F : FTy → Type} [FloatOps F]

/-! ## The named functions, one per stage -/

/-- Rows of a 100000-row table `x` taken at the row numbers `i`, as the program's lookup does it: a negative number
    counts from the end, the wrapped number is tested against `0 ≤ · ≤ 99999`, the row is gathered (clamped into the
    table), and a failed test gives the NaN pattern in place of the row. -/
def takeRowsLike (x : (⟨S100000x64, .f32⟩ : BufTy).Contents (Elt F))
    (i : (⟨S1003520, .i32⟩ : BufTy).Contents (Elt F)) : (⟨S1003520x64, .f32⟩ : BufTy).Contents (Elt F) :=
  let c : (⟨S_, .i32⟩ : BufTy).Contents (Elt F) := constantI S_ 32 0#32
  let v0 : (⟨S1003520, .i32⟩ : BufTy).Contents (Elt F) := broadcastInDim S1003520 ![] Facts₀.bcast_S_S1003520 c
  let v1 : (⟨S1003520, .i1⟩ : BufTy).Contents (Elt F) := cmpi .slt i v0
  let c_0 : (⟨S_, .i32⟩ : BufTy).Contents (Elt F) := constantI S_ 32 100000#32
  let v2 : (⟨S1003520, .i32⟩ : BufTy).Contents (Elt F) := broadcastInDim S1003520 ![] Facts₀.bcast_S_S1003520 c_0
  let v3 : (⟨S1003520, .i32⟩ : BufTy).Contents (Elt F) := addi i v2
  let v4 : (⟨S1003520, .i32⟩ : BufTy).Contents (Elt F) := select v1 v3 i
  let v5 : (⟨S1003520x1, .i32⟩ : BufTy).Contents (Elt F) := broadcastInDim S1003520x1 ![0] Facts₀.bcast_S1003520_S1003520x1_0 v4
  let c_1 : (⟨S1, .i32⟩ : BufTy).Contents (Elt F) := constantI S1 32 99999#32
  let c_2 : (⟨S_, .i32⟩ : BufTy).Contents (Elt F) := constantI S_ 32 0#32
  let v6 : (⟨S1003520x1, .i32⟩ : BufTy).Contents (Elt F) := broadcastInDim S1003520x1 ![] Facts₀.bcast_S_S1003520x1 c_2
  let v7 : (⟨S1003520x1, .i1⟩ : BufTy).Contents (Elt F) := cmpi .sge v5 v6
  let v8 : (⟨S1x1, .i32⟩ : BufTy).Contents (Elt F) := broadcastInDim S1x1 ![1] Facts₀.bcast_S1_S1x1_1 c_1
  let v9 : (⟨S1003520x1, .i32⟩ : BufTy).Contents (Elt F) := broadcastInDim S1003520x1 ![0, 1] Facts₀.bcast_S1x1_S1003520x1_0_1 v8
  let v10 : (⟨S1003520x1, .i1⟩ : BufTy).Contents (Elt F) := cmpi .sle v5 v9
  let v11 : (⟨S1003520x1, .i1⟩ : BufTy).Contents (Elt F) := andi v7 v10
  let c_3 : (⟨S_, .i1⟩ : BufTy).Contents (Elt F) := constantI S_ 1 1#1
  let v12 : (⟨S1003520, .i1⟩ : BufTy).Contents (Elt F) := Host.reduce IntOp.andi v11 c_3 Facts₀.reducesTo_S1003520x1_S1003520_d1 Facts₀.h_S_
  let v13 : (⟨S1003520x64, .f32⟩ : BufTy).Contents (Elt F) := Host.gather gather_S100000x64_S1003520x1_S1003520x64_1_0_n_n_0_1_164 x v5
  let v14 : (⟨S1003520x64, .i1⟩ : BufTy).Contents (Elt F) := broadcastInDim S1003520x64 ![0] Facts₀.bcast_S1003520_S1003520x64_0 v12
  let cst : (⟨S_, .f32⟩ : BufTy).Contents (Elt F) := constant S_ .f32 0x7FC00000#32
  let v15 : (⟨S1003520x64, .f32⟩ : BufTy).Contents (Elt F) := broadcastInDim S1003520x64 ![] Facts₀.bcast_S_S1003520x64 cst
  select v14 v13 v15

/-- The source half of the first layer applied to every row of the table: both operands rounded to bf16, rows 0..127 of
    the weights, one matrix product. -/
def projLo (a0 : (⟨S100000x128, .f32⟩ : BufTy).Contents (Elt F)) (a3 : (⟨S256x64, .f32⟩ : BufTy).Contents (Elt F)) :
    (⟨S100000x64, .f32⟩ : BufTy).Contents (Elt F) :=
  Host.dotGeneral dot_S100000x128_S128x64_S100000x64_1_0_0_1_n_n none (truncf .bf16 a0 Facts₀.bitsLt_bf16_f32)
    (extractStridedSlice S128x64 ![0, 0] (truncf .bf16 a3 Facts₀.bitsLt_bf16_f32) Facts₀.slices_S256x64_S128x64_0_0)

/-- The destination half of the first layer applied to every row of the table: both operands rounded to bf16, rows
    128..255 of the weights, one matrix product. -/
def projHi (a0 : (⟨S100000x128, .f32⟩ : BufTy).Contents (Elt F)) (a3 : (⟨S256x64, .f32⟩ : BufTy).Contents (Elt F)) :
    (⟨S100000x64, .f32⟩ : BufTy).Contents (Elt F) :=
  Host.dotGeneral dot_S100000x128_S128x64_S100000x64_1_0_0_1_n_n none (truncf .bf16 a0 Facts₀.bitsLt_bf16_f32)
    (extractStridedSlice S128x64 ![128, 0] (truncf .bf16 a3 Facts₀.bitsLt_bf16_f32) Facts₀.slices_S256x64_S128x64_128_0)

/-- Row 0 of the edge list's first 999999 columns, as a vector: the sources' row numbers. -/
def row0 (a1 : (⟨S2x2000000, .i32⟩ : BufTy).Contents (Elt F)) : (⟨S999999, .i32⟩ : BufTy).Contents (Elt F) :=
  shapeCast S999999 (extractStridedSlice S1x999999 ![0, 0] a1 Facts₀.slices_S2x2000000_S1x999999_0_0)
    Facts₀.shapeCasts_S1x999999_S999999

/-- Row 1 of the edge list's first 999999 columns, as a vector: the destinations' row numbers. -/
def row1 (a1 : (⟨S2x2000000, .i32⟩ : BufTy).Contents (Elt F)) : (⟨S999999, .i32⟩ : BufTy).Contents (Elt F) :=
  shapeCast S999999 (extractStridedSlice S1x999999 ![1, 0] a1 Facts₀.slices_S2x2000000_S1x999999_1_0)
    Facts₀.shapeCasts_S1x999999_S999999

/-- A 999999-vector of row numbers padded at its end to 1003520 entries with the scalar `v`. -/
def padTo (x : (⟨S999999, .i32⟩ : BufTy).Contents (Elt F)) (v : (⟨S_, .i32⟩ : BufTy).Contents (Elt F)) :
    (⟨S1003520, .i32⟩ : BufTy).Contents (Elt F) :=
  pad S1003520 ![0] ![3521] ![0] x v Facts₀.pads_S999999_S1003520_035210 Facts₀.h_S_

/-- The sources' row numbers padded with zeros to 1003520 entries. -/
def padIdxLike0 (a1 : (⟨S2x2000000, .i32⟩ : BufTy).Contents (Elt F)) : (⟨S1003520, .i32⟩ : BufTy).Contents (Elt F) :=
  padTo (F := F) (row0 (F := F) a1) (constantI S_ 32 0#32)

/-- The destinations' row numbers padded with zeros to 1003520 entries. -/
def padIdxLike (a1 : (⟨S2x2000000, .i32⟩ : BufTy).Contents (Elt F)) : (⟨S1003520, .i32⟩ : BufTy).Contents (Elt F) :=
  padTo (F := F) (row1 (F := F) a1) (constantI S_ 32 0#32)

/-- The column of draws padded at its end to 1003520 rows with the scalar `v`. -/
def padDrawsWith (x : (⟨S999999x1, .f32⟩ : BufTy).Contents (Elt F)) (v : (⟨S_, .f32⟩ : BufTy).Contents (Elt F)) :
    (⟨S1003520x1, .f32⟩ : BufTy).Contents (Elt F) :=
  pad S1003520x1 ![0, 0] ![3521, 0] ![0, 0] x v Facts₀.pads_S999999x1_S1003520x1_035210_000 Facts₀.h_S_

/-- The column of draws padded to 1003520 rows with one half. -/
def padDraws (a2 : (⟨S999999x1, .f32⟩ : BufTy).Contents (Elt F)) : (⟨S1003520x1, .f32⟩ : BufTy).Contents (Elt F) :=
  padDrawsWith (F := F) a2 (constant S_ .f32 0x3F000000#32)

/-! ## The contents when the region is entered, stretch by stretch -/

/-- The nine stretches one after the other. -/
theorem V0_split (m : (ℓ : Loc nD τ sig) → Buf (Elt F) ℓ) (c : Dev nD) :
    V0 m c = StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (fun b => m (c, b)))))))))) := by
  show StableHlo.after (List.flatten [hostOps0, hostOps0_1, hostOps0_2, hostOps0_3, hostOps0_4, hostOps0_5, hostOps0_6,
    hostOps0_7, hostOps0_8]) (fun b => m (c, b)) = _
  simp only [List.flatten_cons, List.flatten_nil, List.append_nil, after_append]

/-! ## Each stretch at the buffer it computes -/

/-- The first stretch leaves the sources' row numbers in `main_v1`, … -/
theorem after0_v1 (M : Valuation τ sig (Elt F)) :
    StableHlo.after (hostOps0 (F := F)) M (Proc.devRef .tc main_v1) = row0 (F := F) (M (Proc.devRef .tc main_arg1)) := by
  after_results
  rfl
/-- … the destinations' in `main_v3`, … -/
theorem after0_v3 (M : Valuation τ sig (Elt F)) :
    StableHlo.after (hostOps0 (F := F)) M (Proc.devRef .tc main_v3) = row1 (F := F) (M (Proc.devRef .tc main_arg1)) := by
  after_results
  rfl
/-- … and the zero word in `main_c`. -/
theorem after0_c (M : Valuation τ sig (Elt F)) :
    StableHlo.after (hostOps0 (F := F)) M (Proc.devRef .tc main_c) = constantI S_ 32 0#32 := by
  after_results

/-- The second stretch pads `main_v1` with `main_c` into `main_v4`. -/
theorem after1_v4_rd (Y : Valuation τ sig (Elt F)) :
    rd (TRef.of main_v4 : TRef sig ⟨S1003520, .i32⟩) (StableHlo.after (hostOps0_1 (F := F)) Y)
      = padTo (F := F) (rd (TRef.of main_v1 : TRef sig ⟨S999999, .i32⟩) Y) (rd (TRef.of main_c : TRef sig ⟨S_, .i32⟩) Y) := by
  rd_results
  rfl
theorem after1_v4 (Y : Valuation τ sig (Elt F)) :
    StableHlo.after (hostOps0_1 (F := F)) Y (Proc.devRef .tc main_v4)
      = padTo (F := F) (Y (Proc.devRef .tc main_v1)) (Y (Proc.devRef .tc main_c)) :=
  after1_v4_rd Y

/-- The third stretch is the zero word in `main_c_0`. -/
theorem after2_c_0 (Y : Valuation τ sig (Elt F)) :
    StableHlo.after (hostOps0_2 (F := F)) Y (Proc.devRef .tc main_c_0) = constantI S_ 32 0#32 := by
  after_results

/-- The fourth stretch pads `main_v3` with `main_c_0` into `main_v5`. -/
theorem after3_v5_rd (Y : Valuation τ sig (Elt F)) :
    rd (TRef.of main_v5 : TRef sig ⟨S1003520, .i32⟩) (StableHlo.after (hostOps0_3 (F := F)) Y)
      = padTo (F := F) (rd (TRef.of main_v3 : TRef sig ⟨S999999, .i32⟩) Y) (rd (TRef.of main_c_0 : TRef sig ⟨S_, .i32⟩) Y) := by
  rd_results
  rfl
theorem after3_v5 (Y : Valuation τ sig (Elt F)) :
    StableHlo.after (hostOps0_3 (F := F)) Y (Proc.devRef .tc main_v5)
      = padTo (F := F) (Y (Proc.devRef .tc main_v3)) (Y (Proc.devRef .tc main_c_0)) :=
  after3_v5_rd Y

/-- The fifth stretch is the word of one half in `main_cst`. -/
theorem after4_cst (Y : Valuation τ sig (Elt F)) :
    StableHlo.after (hostOps0_4 (F := F)) Y (Proc.devRef .tc main_cst) = constant S_ .f32 0x3F000000#32 := by
  after_results

/-- The sixth stretch pads the draws with `main_cst` into `main_v6`. -/
theorem after5_v6_rd (Y : Valuation τ sig (Elt F)) :
    rd (TRef.of main_v6 : TRef sig ⟨S1003520x1, .f32⟩) (StableHlo.after (hostOps0_5 (F := F)) Y)
      = padDrawsWith (F := F) (rd (TRef.of main_arg2 : TRef sig ⟨S999999x1, .f32⟩) Y)
          (rd (TRef.of main_cst : TRef sig ⟨S_, .f32⟩) Y) := by
  rd_results
  rfl
theorem after5_v6 (Y : Valuation τ sig (Elt F)) :
    StableHlo.after (hostOps0_5 (F := F)) Y (Proc.devRef .tc main_v6)
      = padDrawsWith (F := F) (Y (Proc.devRef .tc main_arg2)) (Y (Proc.devRef .tc main_cst)) :=
  after5_v6_rd Y

/-- The seventh stretch leaves the source projections in `main_v10` … -/
theorem after6_v10 (Y : Valuation τ sig (Elt F)) :
    StableHlo.after (hostOps0_6 (F := F)) Y (Proc.devRef .tc main_v10)
      = projLo (F := F) (Y (Proc.devRef .tc main_arg0)) (Y (Proc.devRef .tc main_arg3)) := by
  after_results
  rfl
/-- … and the destination projections in `main_v12`. -/
theorem after6_v12 (Y : Valuation τ sig (Elt F)) :
    StableHlo.after (hostOps0_6 (F := F)) Y (Proc.devRef .tc main_v12)
      = projHi (F := F) (Y (Proc.devRef .tc main_arg0)) (Y (Proc.devRef .tc main_arg3)) := by
  after_results
  rfl

set_option maxHeartbeats 4000000 in
/-- The eighth stretch looks the rows of `main_v10` up at `main_v4`, into `main_v13`. -/
theorem take7_rd (X : Valuation τ sig (Elt F)) :
    rd (TRef.of main_v13 : TRef sig ⟨S1003520x64, .f32⟩) (StableHlo.after (hostOps0_7 (F := F)) X)
      = takeRowsLike (F := F) (rd (TRef.of main_v10 : TRef sig ⟨S100000x64, .f32⟩) X)
          (rd (TRef.of main_v4 : TRef sig ⟨S1003520, .i32⟩) X) := by
  rd_results
  rfl
theorem take7 (X : Valuation τ sig (Elt F)) :
    StableHlo.after (hostOps0_7 (F := F)) X (Proc.devRef .tc main_v13)
      = takeRowsLike (F := F) (X (Proc.devRef .tc main_v10)) (X (Proc.devRef .tc main_v4)) :=
  take7_rd X

set_option maxHeartbeats 4000000 in
/-- The ninth stretch looks the rows of `main_v12` up at `main_v5`, into `main_v14`. -/
theorem take8_rd (X : Valuation τ sig (Elt F)) :
    rd (TRef.of main_v14 : TRef sig ⟨S1003520x64, .f32⟩) (StableHlo.after (hostOps0_8 (F := F)) X)
      = takeRowsLike (F := F) (rd (TRef.of main_v12 : TRef sig ⟨S100000x64, .f32⟩) X)
          (rd (TRef.of main_v5 : TRef sig ⟨S1003520, .i32⟩) X) := by
  rd_results
  rfl
theorem take8 (X : Valuation τ sig (Elt F)) :
    StableHlo.after (hostOps0_8 (F := F)) X (Proc.devRef .tc main_v14)
      = takeRowsLike (F := F) (X (Proc.devRef .tc main_v12)) (X (Proc.devRef .tc main_v5)) :=
  take8_rd X

/-! ## What the later stretches find -/

/-- The table and the weights are written by no stretch before the seventh. -/
theorem keep05_arg (r : Ref sig .tc) (hr : r = main_arg0 ∨ r = main_arg3) (M : Valuation τ sig (Elt F)) :
    StableHlo.after (hostOps0_5 (F := F)) (StableHlo.after hostOps0_4 (StableHlo.after hostOps0_3 (StableHlo.after hostOps0_2
      (StableHlo.after hostOps0_1 (StableHlo.after hostOps0 M))))) (Proc.devRef .tc r) = M (Proc.devRef .tc r) := by
  rcases hr with rfl | rfl
  · rw [after_keep _ _ _ (by not_written), after_keep _ _ _ (by not_written), after_keep _ _ _ (by not_written),
      after_keep _ _ _ (by not_written), after_keep _ _ _ (by not_written), after_keep _ _ _ (by not_written)]
  · rw [after_keep _ _ _ (by not_written), after_keep _ _ _ (by not_written), after_keep _ _ _ (by not_written),
      after_keep _ _ _ (by not_written), after_keep _ _ _ (by not_written), after_keep _ _ _ (by not_written)]

/-- After the first seven stretches `main_v10` holds the source projections of the table's rows, … -/
theorem X6_v10 (M : Valuation τ sig (Elt F)) :
    StableHlo.after (hostOps0_6 (F := F)) (StableHlo.after hostOps0_5 (StableHlo.after hostOps0_4
      (StableHlo.after hostOps0_3 (StableHlo.after hostOps0_2 (StableHlo.after hostOps0_1 (StableHlo.after hostOps0 M))))))
      (Proc.devRef .tc main_v10)
      = projLo (F := F) (M (Proc.devRef .tc main_arg0)) (M (Proc.devRef .tc main_arg3)) := by
  rw [after6_v10, keep05_arg main_arg0 (Or.inl rfl), keep05_arg main_arg3 (Or.inr rfl)]

/-- … `main_v12` the destination projections, … -/
theorem X6_v12 (M : Valuation τ sig (Elt F)) :
    StableHlo.after (hostOps0_6 (F := F)) (StableHlo.after hostOps0_5 (StableHlo.after hostOps0_4
      (StableHlo.after hostOps0_3 (StableHlo.after hostOps0_2 (StableHlo.after hostOps0_1 (StableHlo.after hostOps0 M))))))
      (Proc.devRef .tc main_v12)
      = projHi (F := F) (M (Proc.devRef .tc main_arg0)) (M (Proc.devRef .tc main_arg3)) := by
  rw [after6_v12, keep05_arg main_arg0 (Or.inl rfl), keep05_arg main_arg3 (Or.inr rfl)]

/-- … `main_v4` the padded sources' row numbers, … -/
theorem X6_v4 (M : Valuation τ sig (Elt F)) :
    StableHlo.after (hostOps0_6 (F := F)) (StableHlo.after hostOps0_5 (StableHlo.after hostOps0_4
      (StableHlo.after hostOps0_3 (StableHlo.after hostOps0_2 (StableHlo.after hostOps0_1 (StableHlo.after hostOps0 M))))))
      (Proc.devRef .tc main_v4)
      = padIdxLike0 (F := F) (M (Proc.devRef .tc main_arg1)) := by
  rw [after_keep _ _ main_v4 (by not_written), after_keep _ _ main_v4 (by not_written), after_keep _ _ main_v4 (by not_written),
    after_keep _ _ main_v4 (by not_written), after_keep _ _ main_v4 (by not_written), after1_v4, after0_v1, after0_c]
  rfl

/-- … and `main_v5` the padded destinations' row numbers. -/
theorem X6_v5 (M : Valuation τ sig (Elt F)) :
    StableHlo.after (hostOps0_6 (F := F)) (StableHlo.after hostOps0_5 (StableHlo.after hostOps0_4
      (StableHlo.after hostOps0_3 (StableHlo.after hostOps0_2 (StableHlo.after hostOps0_1 (StableHlo.after hostOps0 M))))))
      (Proc.devRef .tc main_v5)
      = padIdxLike (F := F) (M (Proc.devRef .tc main_arg1)) := by
  rw [after_keep _ _ main_v5 (by not_written), after_keep _ _ main_v5 (by not_written), after_keep _ _ main_v5 (by not_written),
    after3_v5, after2_c_0, after_keep _ _ main_v3 (by not_written), after_keep _ _ main_v3 (by not_written), after0_v3]
  rfl

/-! ## The three arrays -/

section Arrays
variable (m : (ℓ : Loc nD τ sig) → Buf (Elt F) ℓ)

/-- What the region finds in `main_v13`: the source projections of all rows, taken at the padded sources' row numbers. -/
theorem V_main_v13 (c : Dev nD) :
    V m c main_v13 = takeRowsLike (F := F)
      (projLo (F := F) (m (c, Proc.devRef .tc main_arg0)) (m (c, Proc.devRef .tc main_arg3)))
      (padIdxLike0 (F := F) (m (c, Proc.devRef .tc main_arg1))) := by
  show V0 m c (Proc.devRef .tc main_v13) = _
  rw [V0_split, after_keep _ _ main_v13 (by not_written), take7, X6_v10, X6_v4]

/-- What the region finds in `main_v14`: the destination projections of all rows, taken at the padded destinations' row
    numbers. -/
theorem V_main_v14 (c : Dev nD) :
    V m c main_v14 = takeRowsLike (F := F)
      (projHi (F := F) (m (c, Proc.devRef .tc main_arg0)) (m (c, Proc.devRef .tc main_arg3)))
      (padIdxLike (F := F) (m (c, Proc.devRef .tc main_arg1))) := by
  show V0 m c (Proc.devRef .tc main_v14) = _
  rw [V0_split, take8, after_keep _ _ main_v12 (by not_written), after_keep _ _ main_v5 (by not_written), X6_v12, X6_v5]

/-- What the region finds in `main_v6`: the draws padded to 1003520 rows with one half. -/
theorem V_main_v6 (c : Dev nD) :
    V m c main_v6 = padDraws (F := F) (m (c, Proc.devRef .tc main_arg2)) := by
  show V0 m c (Proc.devRef .tc main_v6) = _
  rw [V0_split, after_keep _ _ main_v6 (by not_written), after_keep _ _ main_v6 (by not_written),
    after_keep _ _ main_v6 (by not_written), after5_v6, after4_cst, after_keep _ _ main_arg2 (by not_written),
    after_keep _ _ main_arg2 (by not_written), after_keep _ _ main_arg2 (by not_written),
    after_keep _ _ main_arg2 (by not_written), after_keep _ _ main_arg2 (by not_written)]
  rfl

end Arrays

end Cert.KernelSide

end
-- ==== Proof.KernelPrefix.lean ====
/-
  What the kernel's region finds in its three row-blocked input arrays, row by row.

  Each of the three arrays is a composition of host operations over the program's arguments. Read at a row `n` below
  999999 the compositions come apart one step at a time: a padded vector below its padding is the vector; row `a` of
  the array of row numbers, sliced and reshaped, at `n` is endpoint `a` of edge `n`; a row number in range, once
  wrapped, passes the test `0 ≤ · ≤ 99999`, so the lookup returns the gathered row and not the not-a-number
  pattern; the gathered row is the table's row the wrapped number names; and the table is the embedding table
  multiplied into one half of the first layer's weights (a format change is the identity at the ideal values), whose
  entry `(r, j)` is the sum over the 128 columns of row `r` against column `j` of that half.
-/
import proofs.«424438_j83640193122891_2_alg».proof.Proof.Gen.KernelIdeal.Frame
import proofs.«424438_j83640193122891_2_alg».proof.Proof.KernelPrefixTerms
import proofs.«424438_j83640193122891_2_alg».proof.Proof.EdgeGate
import proofs.«424438_j83640193122891_2_alg».proof.Proof.InRange
import proofs.«424438_j83640193122891_2_alg».proof.Proof.LibGatherRows
import proofs.«424438_j83640193122891_2_alg».proof.Proof.LibRowOps
import Idealize.ShloMosaic.Lib.StableHlo.Run
import Idealize.ShloMosaic.Lib.Pipeline.Value
import Idealize.ShloMosaic.Lib.ValueIdx
import Idealize.ShloMosaic.Lib.KernelVsHost
import Idealize.ShloMosaic.Lib.ReduceAll
import Idealize.ShloMosaic.PureOps.Ideal.Laws

set_option maxRecDepth 16384

noncomputable section

namespace Cert.KernelSide

open Idealize.ShloMosaic Idealize.ShloMosaic.TcCoe Idealize.SL.Sem Idealize.ShloMosaic.ValueIdx Cert.KernelIdeal Cert.KernelIdeal.Gen Cert.EdgeGate

/-! ## The stages at the ideal values, and each read at an index

The same compositions as the whole-array equations name, written at the ideal values with one definition per stage, so
that each stage is read at an index by itself. -/

namespace Rows

/-- Row 0 of the array of row numbers (the source endpoints), its first 999999 entries as a vector. -/
def srcIdx (x1 : IVec S2x2000000 32) : IVec S999999 32 :=
  shapeCast S999999 (extractStridedSlice S1x999999 ![0, 0] x1 slices_S2x2000000_S1x999999_0_0) shapeCasts_S1x999999_S999999

/-- Row 1 of the array of row numbers (the destination endpoints), its first 999999 entries as a vector. -/
def dstIdx (x1 : IVec S2x2000000 32) : IVec S999999 32 :=
  shapeCast S999999 (extractStridedSlice S1x999999 ![1, 0] x1 slices_S2x2000000_S1x999999_1_0) shapeCasts_S1x999999_S999999

/-- A vector of 999999 row numbers followed by 3521 zeros. -/
def padIdx (x : IVec S999999 32) : IVec S1003520 32 :=
  pad S1003520 ![0] ![3521] ![0] x (constantI S_ 32 0#32) pads_S999999_S1003520_035210 h_S_

/-- The column of 999999 draws followed by 3521 rows holding one half. -/
def padDraws (x2 : FVec Ideal S999999x1 .f32) : FVec Ideal S1003520x1 .f32 :=
  pad S1003520x1 ![0, 0] ![3521, 0] ![0, 0] x2 (constant (F := Ideal) S_ .f32 0x3F000000#32)
    pads_S999999x1_S1003520x1_035210_000 h_S_

/-- The embedding table against rows 0..127 of the first layer's weights. -/
def projLo (x0 : FVec Ideal S100000x128 .f32) (x3 : FVec Ideal S256x64 .f32) : FVec Ideal S100000x64 .f32 :=
  Host.dotGeneral dot_S100000x128_S128x64_S100000x64_1_0_0_1_n_n none (truncf .bf16 x0 bitsLt_bf16_f32)
    (extractStridedSlice S128x64 ![0, 0] (truncf .bf16 x3 bitsLt_bf16_f32) slices_S256x64_S128x64_0_0)

/-- The embedding table against rows 128..255 of the first layer's weights. -/
def projHi (x0 : FVec Ideal S100000x128 .f32) (x3 : FVec Ideal S256x64 .f32) : FVec Ideal S100000x64 .f32 :=
  Host.dotGeneral dot_S100000x128_S128x64_S100000x64_1_0_0_1_n_n none (truncf .bf16 x0 bitsLt_bf16_f32)
    (extractStridedSlice S128x64 ![128, 0] (truncf .bf16 x3 bitsLt_bf16_f32) slices_S256x64_S128x64_128_0)

/-- Row numbers wrapped as numpy wraps them (a negative one counts from the end of 100000 rows), as a column. -/
def wrapCol (ix : IVec S1003520 32) : IVec S1003520x1 32 :=
  broadcastInDim S1003520x1 ![0] bcast_S1003520_S1003520x1_0
    (select (cmpi .slt ix (broadcastInDim S1003520 ![] bcast_S_S1003520 (constantI S_ 32 0#32)))
      (addi ix (broadcastInDim S1003520 ![] bcast_S_S1003520 (constantI S_ 32 100000#32))) ix)

/-- Whether each wrapped row number is a row of the table: `0 ≤ · ≤ 99999`, all over the one column. -/
def okRows (w : IVec S1003520x1 32) : IVec S1003520 1 :=
  Host.reduce IntOp.andi
    (andi (cmpi .sge w (broadcastInDim S1003520x1 ![] bcast_S_S1003520x1 (constantI S_ 32 0#32)))
      (cmpi .sle w (broadcastInDim S1003520x1 ![0, 1] bcast_S1x1_S1003520x1_0_1
        (broadcastInDim S1x1 ![1] bcast_S1_S1x1_1 (constantI S1 32 99999#32)))))
    (constantI S_ 1 1#1) reducesTo_S1003520x1_S1003520_d1 h_S_

/-- The rows of the table `T` that the row numbers `ix` name: gathered at the wrapped numbers, and the not-a-number
    pattern where a wrapped number is not a row of the table. -/
def takeRows (T : FVec Ideal S100000x64 .f32) (ix : IVec S1003520 32) : FVec Ideal S1003520x64 .f32 :=
  select (broadcastInDim S1003520x64 ![0] bcast_S1003520_S1003520x64_0 (okRows (wrapCol ix)))
    (Host.gather gather_S100000x64_S1003520x1_S1003520x64_1_0_n_n_0_1_164 T (wrapCol ix))
    (broadcastInDim S1003520x64 ![] bcast_S_S1003520x64 (constant (F := Ideal) S_ .f32 0x7FC00000#32))

/-- The source endpoints' vector at `e` is edge `e`'s source row number. -/
theorem srcIdx_apply (x1 : IVec S2x2000000 32) (e : Fin 999999) : srcIdx x1 (ix1 e) = endpoint x1 0 e := by
  unfold srcIdx
  refine (shapeCast_apply _ shapeCasts_S1x999999_S999999 (ix1 e) (ix2 (0 : Fin 1) e)
    (by rewrite [Shape.rowMajor_val_two, Shape.rowMajor_val_one]; show 0 * 999999 + e.val = e.val; omega)).trans ?_
  exact extractStridedSlice_apply ![0, 0] x1 slices_S2x2000000_S1x999999_0_0 (ix2 (0 : Fin 1) e)
    (ix2 (0 : Fin 2) (⟨e.val, by omega⟩ : Fin 2000000)) (fun a => match a with
      | ⟨0, _⟩ => rfl
      | ⟨1, _⟩ => by show e.val = 0 + e.val; omega)

/-- The destination endpoints' vector at `e` is edge `e`'s destination row number. -/
theorem dstIdx_apply (x1 : IVec S2x2000000 32) (e : Fin 999999) : dstIdx x1 (ix1 e) = endpoint x1 1 e := by
  unfold dstIdx
  refine (shapeCast_apply _ shapeCasts_S1x999999_S999999 (ix1 e) (ix2 (0 : Fin 1) e)
    (by rewrite [Shape.rowMajor_val_two, Shape.rowMajor_val_one]; show 0 * 999999 + e.val = e.val; omega)).trans ?_
  exact extractStridedSlice_apply ![1, 0] x1 slices_S2x2000000_S1x999999_1_0 (ix2 (0 : Fin 1) e)
    (ix2 (1 : Fin 2) (⟨e.val, by omega⟩ : Fin 2000000)) (fun a => match a with
      | ⟨0, _⟩ => rfl
      | ⟨1, _⟩ => by show e.val = 0 + e.val; omega)

/-- A padded vector of row numbers, below the padding, is the vector. -/
theorem padIdx_apply (x : IVec S999999 32) (n : ℕ) (hn : n < 999999) :
    padIdx x (ix1 (⟨n, by omega⟩ : Fin 1003520)) = x (ix1 (⟨n, hn⟩ : Fin 999999)) := by
  unfold padIdx
  exact pad_apply_of_inside ![0] ![3521] ![0] x _ pads_S999999_S1003520_035210 h_S_ (ix1 (⟨n, by omega⟩ : Fin 1003520))
    (ix1 (⟨n, hn⟩ : Fin 999999)) (fun a => match a with
      | ⟨0, _⟩ => by show n = 0 + n * (0 + 1); omega)

/-- The padded draws, below the padding, are the draws. -/
theorem padDraws_apply (x2 : FVec Ideal S999999x1 .f32) (n : ℕ) (hn : n < 999999) :
    padDraws x2 (ix2 (⟨n, by omega⟩ : Fin 1003520) (0 : Fin 1)) = x2 (ix2 (⟨n, hn⟩ : Fin 999999) (0 : Fin 1)) := by
  unfold padDraws
  exact pad_apply_of_inside ![0, 0] ![3521, 0] ![0, 0] x2 _ pads_S999999x1_S1003520x1_035210_000 h_S_
    (ix2 (⟨n, by omega⟩ : Fin 1003520) (0 : Fin 1)) (ix2 (⟨n, hn⟩ : Fin 999999) (0 : Fin 1)) (fun a => match a with
      | ⟨0, _⟩ => by show n = 0 + n * (0 + 1); omega
      | ⟨1, _⟩ => by show 0 = 0 + 0 * (0 + 1); omega)

/-- The column of wrapped row numbers at row `r` is the wrapped row number `r`. -/
theorem wrapCol_apply (ix : IVec S1003520 32) (r : Fin 1003520) :
    wrapCol ix (ix2 r (0 : Fin 1)) = wrapRow (ix (ix1 r)) := by
  unfold wrapCol
  refine (broadcastInDim_apply ![0] bcast_S1003520_S1003520x1_0 _ (ix2 r (0 : Fin 1)) (ix1 r) (fun a => match a with
    | ⟨0, _⟩ => by show r.val = if (1003520 : ℕ) = 1 then 0 else r.val; rw [if_neg (by decide)])).trans ?_
  rw [select_apply]
  rfl

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l (fun n hn => h n (List.mem_cons_of_mem _ hn))

/-- Where a wrapped row number passes the test `0 ≤ · ≤ 99999`, its row is marked. -/
theorem okRows_of_test (w : IVec S1003520x1 32) (r : Fin 1003520)
    (h : IntOp.andi (IntOp.cmpi .sge (w (ix2 r (0 : Fin 1))) 0#32) (IntOp.cmpi .sle (w (ix2 r (0 : Fin 1))) 99999#32) = 1#1) :
    okRows w (ix1 r) = 1#1 := by
  unfold okRows
  rw [Host.reduce_eq_foldl]
  refine foldl_andi_one _ _ (fun i hi => ?_)
  rw [List.mem_filter] at hi
  have hd : reducesTo_S1003520x1_S1003520_d1.drop i = ix1 r := by simpa using hi.2
  have h0 : i 0 = r := Fin.ext (by
    have := congrArg (fun q : S1003520.Idx => (q 0).val) hd
    rw [← Shape.ReducesTo.drop_apply_val_of_eq reducesTo_S1003520x1_S1003520_d1 i (0 : Fin 1) (0 : Fin 2)]
    exact this)
  have h1 : i 1 = (0 : Fin 1) := Fin.ext (by
    have hlt : (i 1).val < 1 := (i 1).isLt
    show (i 1).val = 0
    omega)
  have hi' : i = ix2 r (0 : Fin 1) := (eq_ix2 i).trans (congrArg₂ ix2 h0 h1)
  rw [hi']
  show IntOp.andi (IntOp.cmpi .sge (w (ix2 r (0 : Fin 1))) _) (IntOp.cmpi .sle (w (ix2 r (0 : Fin 1))) _) = 1#1
  have e0 : broadcastInDim S1003520x1 ![] bcast_S_S1003520x1 (constantI S_ 32 0#32) (ix2 r (0 : Fin 1)) = 0#32 := rfl
  have e9 : broadcastInDim S1003520x1 ![0, 1] bcast_S1x1_S1003520x1_0_1
      (broadcastInDim S1x1 ![1] bcast_S1_S1x1_1 (constantI S1 32 99999#32)) (ix2 r (0 : Fin 1)) = 99999#32 := rfl
  rw [e0, e9]
  exact h

/-- The rows taken from a table at row numbers in range: row `r` is the table's row the number names. -/
theorem takeRows_apply (T : FVec Ideal S100000x64 .f32) (ix : IVec S1003520 32) (r : Fin 1003520) (j : Fin 64)
    (h : InRange (ix (ix1 r))) :
    takeRows T ix (ix2 r j) = T (ix2 (rowOf (ix (ix1 r))) j) := by
  unfold takeRows
  rw [select_apply]
  have hok : broadcastInDim S1003520x64 ![0] bcast_S1003520_S1003520x64_0 (okRows (wrapCol ix)) (ix2 r j) = 1#1 := by
    refine (broadcastInDim_apply ![0] bcast_S1003520_S1003520x64_0 _ (ix2 r j) (ix1 r) (fun a => match a with
      | ⟨0, _⟩ => by show r.val = if (1003520 : ℕ) = 1 then 0 else r.val; rw [if_neg (by decide)])).trans ?_
    refine okRows_of_test _ r ?_
    rw [wrapCol_apply]
    exact Cert.InRange.wrapRow_test h
  rw [hok, select_one]
  refine (Cert.Lib.gather_rows_apply (by omega) gather_S100000x64_S1003520x1_S1003520x64_1_0_n_n_0_1_164_wf T
    (wrapCol ix) r j).trans ?_
  refine congrArg (fun q : Fin 100000 => T (ix2 q j)) (Fin.ext ?_)
  show min (wrapCol ix (ix2 r (0 : Fin 1))).toInt.toNat (100000 - 1) = min (wrapRow (ix (ix1 r))).toInt.toNat 99999
  rw [wrapCol_apply]

/-- The table against the upper half of the weights, at `(r, j)`. -/
theorem projLo_apply (x0 : FVec Ideal S100000x128 .f32) (x3 : FVec Ideal S256x64 .f32) (r : Fin 100000) (j : Fin 64) :
    projLo x0 x3 (ix2 r j) = halfProj x0 x3 0 (by omega) r j := by
  unfold projLo halfProj
  refine (Cert.Lib.dotGeneral_plain_apply 100000 128 64 none _ _ (ix2 r j)).trans ?_
  refine Finset.sum_congr rfl fun k _ => ?_
  rw [truncf_apply]
  congr 1
  refine (extractStridedSlice_apply ![0, 0] _ slices_S256x64_S128x64_0_0 (ix2 k j)
    (ix2 (⟨0 + k.val, by omega⟩ : Fin 256) j) (fun a => match a with
      | ⟨0, _⟩ => rfl
      | ⟨1, _⟩ => by show j.val = 0 + j.val; omega)).trans ?_
  rw [truncf_apply]

/-- The table against the lower half of the weights, at `(r, j)`. -/
theorem projHi_apply (x0 : FVec Ideal S100000x128 .f32) (x3 : FVec Ideal S256x64 .f32) (r : Fin 100000) (j : Fin 64) :
    projHi x0 x3 (ix2 r j) = halfProj x0 x3 128 (by omega) r j := by
  unfold projHi halfProj
  refine (Cert.Lib.dotGeneral_plain_apply 100000 128 64 none _ _ (ix2 r j)).trans ?_
  refine Finset.sum_congr rfl fun k _ => ?_
  rw [truncf_apply]
  congr 1
  refine (extractStridedSlice_apply ![128, 0] _ slices_S256x64_S128x64_128_0 (ix2 k j)
    (ix2 (⟨128 + k.val, by omega⟩ : Fin 256) j) (fun a => match a with
      | ⟨0, _⟩ => rfl
      | ⟨1, _⟩ => by show j.val = 0 + j.val; omega)).trans ?_
  rw [truncf_apply]

end Rows

/-! ## The three arrays, row by row -/

variable (m : (ℓ : Loc nD τ sig) → Buf (Elt Ideal) ℓ)

/-- Row `n` of the source-side array the region finds, for a used edge `n` whose source row number is in range: the
    source endpoint's row of the embedding table against the upper half of the first layer's weights. -/
theorem srcRows_apply (c : Dev nD) (n : ℕ) (hn : n < 999999) (j : Fin 64)
    (hin : InRange (endpoint (m ((c.tc : Thread nD τ).loc main_arg1)) 0 ⟨n, hn⟩)) :
    V m c main_v13 (ix2 (⟨n, by omega⟩ : Fin 1003520) j)
      = halfProj (m ((c.tc : Thread nD τ).loc main_arg0)) (m ((c.tc : Thread nD τ).loc main_arg3)) 0 (by omega) (rowOf (endpoint (m ((c.tc : Thread nD τ).loc main_arg1)) 0 ⟨n, hn⟩)) j := by
  refine (congrFun (V_main_v13 m c) _).trans ?_
  show Rows.takeRows (Rows.projLo (m ((c.tc : Thread nD τ).loc main_arg0)) (m ((c.tc : Thread nD τ).loc main_arg3)))
    (Rows.padIdx (Rows.srcIdx (m ((c.tc : Thread nD τ).loc main_arg1)))) (ix2 (⟨n, by omega⟩ : Fin 1003520) j) = _
  have hix : Rows.padIdx (Rows.srcIdx (m ((c.tc : Thread nD τ).loc main_arg1))) (ix1 (⟨n, by omega⟩ : Fin 1003520))
      = endpoint (m ((c.tc : Thread nD τ).loc main_arg1)) 0 ⟨n, hn⟩ := by
    rw [Rows.padIdx_apply _ n hn, Rows.srcIdx_apply]
  rw [Rows.takeRows_apply _ _ _ j (by rw [hix]; exact hin), hix, Rows.projLo_apply]

/-- The same for the destination side: the destination endpoint's row against the lower half of the weights. -/
theorem dstRows_apply (c : Dev nD) (n : ℕ) (hn : n < 999999) (j : Fin 64)
    (hin : InRange (endpoint (m ((c.tc : Thread nD τ).loc main_arg1)) 1 ⟨n, hn⟩)) :
    V m c main_v14 (ix2 (⟨n, by omega⟩ : Fin 1003520) j)
      = halfProj (m ((c.tc : Thread nD τ).loc main_arg0)) (m ((c.tc : Thread nD τ).loc main_arg3)) 128 (by omega) (rowOf (endpoint (m ((c.tc : Thread nD τ).loc main_arg1)) 1 ⟨n, hn⟩)) j := by
  refine (congrFun (V_main_v14 m c) _).trans ?_
  show Rows.takeRows (Rows.projHi (m ((c.tc : Thread nD τ).loc main_arg0)) (m ((c.tc : Thread nD τ).loc main_arg3)))
    (Rows.padIdx (Rows.dstIdx (m ((c.tc : Thread nD τ).loc main_arg1)))) (ix2 (⟨n, by omega⟩ : Fin 1003520) j) = _
  have hix : Rows.padIdx (Rows.dstIdx (m ((c.tc : Thread nD τ).loc main_arg1))) (ix1 (⟨n, by omega⟩ : Fin 1003520))
      = endpoint (m ((c.tc : Thread nD τ).loc main_arg1)) 1 ⟨n, hn⟩ := by
    rw [Rows.padIdx_apply _ n hn, Rows.dstIdx_apply]
  rw [Rows.takeRows_apply _ _ _ j (by rw [hix]; exact hin), hix, Rows.projHi_apply]

/-- Row `n` of the padded draws, for a used edge `n`, is the edge's draw. -/
theorem draws_apply (c : Dev nD) (n : ℕ) (hn : n < 999999) :
    V m c main_v6 (ix2 (⟨n, by omega⟩ : Fin 1003520) (0 : Fin 1))
      = (m ((c.tc : Thread nD τ).loc main_arg2)) (ix2 (⟨n, hn⟩ : Fin 999999) (0 : Fin 1)) := by
  refine (congrFun (V_main_v6 m c) _).trans ?_
  show Rows.padDraws (m ((c.tc : Thread nD τ).loc main_arg2)) (ix2 (⟨n, by omega⟩ : Fin 1003520) (0 : Fin 1)) = _
  exact Rows.padDraws_apply _ n hn

end Cert.KernelSide

end
-- ==== Proof.KernelTail.lean ====
/-
  The kernel program's last three host operations: the result array's first 999999 rows as a vector, and that
  vector twice over.
-/
import proofs.«424438_j83640193122891_2_alg».proof.Proof.Gen.KernelIdeal.Frame
import proofs.«424438_j83640193122891_2_alg».proof.Proof.EdgeGate
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelSide

open Idealize.ShloMosaic Idealize.ShloMosaic.TcCoe Idealize.SL.Sem Idealize.ShloMosaic.ValueIdx Cert.KernelIdeal Cert.KernelIdeal.Gen Cert.EdgeGate

variable (m : (ℓ : Loc nD τ sig) → Buf (Elt Ideal) ℓ)

/-- The first 999999 rows of a one-column array, read as a vector: entry `e` is row `e`. -/
theorem firstRows_apply {α : Type} (X : S1003520x1.Idx → α) (e : S999999.Idx) :
    shapeCast S999999 (extractStridedSlice S999999x1 ![0, 0] X Facts₀.slices_S1003520x1_S999999x1_0_0)
        Facts₀.shapeCasts_S999999x1_S999999 e
      = X (ix2 (⟨(e 0).val, Nat.lt_trans (e 0).isLt (by decide : 999999 < 1003520)⟩ : Fin 1003520) (0 : Fin 1)) := by
  refine (shapeCast_apply _ Facts₀.shapeCasts_S999999x1_S999999 e
    (ix2 (⟨(e 0).val, (e 0).isLt⟩ : Fin 999999) (0 : Fin 1)) ?_).trans ?_
  · rewrite [Shape.rowMajor_val_two, Shape.rowMajor_val_one]
    show (e 0).val * 1 + 0 = (e 0).val
    omega
  · exact extractStridedSlice_apply ![0, 0] X Facts₀.slices_S1003520x1_S999999x1_0_0 _ _ (fun a => match a with
      | ⟨0, _⟩ => by show (e 0).val = 0 + (e 0).val; omega
      | ⟨1, _⟩ => by show 0 = 0 + 0; rfl)

/-- The first result of the program: entry `e` is row `e` of the region's result array (whatever that array `A` is). -/
theorem tail_weights (c : Dev nD) (A : S1003520x1.Idx → EReal) (hA : (dats m 0 c).arrAt 6 cfg0.N = A) :
    Pipeline.afterTail₀ cfgs (dats m) 0 (V0 m) [hostOps1] c main_v17
      = fun e : (⟨1, ![999999]⟩ : Shape).Idx =>
          A (ix2 (⟨(e 0).val, Nat.lt_trans (e 0).isLt (by decide : 999999 < 1003520)⟩ : Fin 1003520) (0 : Fin 1)) := by
  unfold Pipeline.afterTail₀
  show StableHlo.after hostOps1 _ (Proc.devRef .tc main_v17) = _
  after_results
  funext e
  show shapeCast S999999 (extractStridedSlice S999999x1 ![0, 0]
      (Pipeline.withArrays (cfgs 0).spec c (V0 m c) (fun w => (dats m 0 c).arrAt w (cfgs 0).N) (Proc.devRef .tc main_v15))
      Facts₀.slices_S1003520x1_S999999x1_0_0) Facts₀.shapeCasts_S999999x1_S999999 e = _
  refine (firstRows_apply _ e).trans ?_
  exact congrFun ((Pipeline.withArrays_arr spec0 launch0.win.arr_inj c _ _ 6).trans hA) _

/-- The second result is the first twice over, end to end. -/
theorem tail_twice (c : Dev nD) :
    Pipeline.afterTail₀ cfgs (dats m) 0 (V0 m) [hostOps1] c main_v18
      = twice (Pipeline.afterTail₀ cfgs (dats m) 0 (V0 m) [hostOps1] c main_v17) := by
  unfold Pipeline.afterTail₀
  show (StableHlo.after (hostOps1 (F := Ideal)) _ (Proc.devRef .tc main_v18) : (⟨1, ![1999998]⟩ : Shape).Idx → EReal)
    = twice (StableHlo.after (hostOps1 (F := Ideal)) _ (Proc.devRef .tc main_v17))
  after_results
  rfl

end Cert.KernelSide

end
-- ==== Proof.KernelSide.lean ====
/-
  The kernel program's run: with every used row number in range, its two results are the edge weights and the
  edge weights twice over.

  The region's result array holds, in row `n`, the weight of the edge whose data sit in row `n` of the arrays the
  region finds (`Proof/KernelArray.lean`); for a used edge `n < 999999` those rows are the two endpoint rows of the
  embedding table against the two halves of the first layer's weights and the edge's draw (`Proof/KernelPrefix.lean`),
  so the row is the edge's weight; the last host operations keep rows `0 .. 999998` and double them
  (`Proof/KernelTail.lean`).
-/
import proofs.«424438_j83640193122891_2_alg».proof.Proof.Gen.KernelIdeal.Frame
import proofs.«424438_j83640193122891_2_alg».proof.Proof.EdgeGate
import proofs.«424438_j83640193122891_2_alg».proof.Proof.InRange
import proofs.«424438_j83640193122891_2_alg».proof.Proof.KernelArray
import proofs.«424438_j83640193122891_2_alg».proof.Proof.KernelPrefix
import proofs.«424438_j83640193122891_2_alg».proof.Proof.KernelTail
import Idealize.ShloMosaic.Lib.Pipeline.Value

set_option maxRecDepth 16384

noncomputable section

namespace Cert.KernelSide

open Idealize.ShloMosaic Idealize.ShloMosaic.TcCoe Idealize.SL.Sem Idealize.ShloMosaic.ValueIdx Cert.KernelIdeal Cert.KernelIdeal.Gen Cert.EdgeGate
open Idealize.ShloMosaic.Pipeline (Dat)

variable (m : (ℓ : Loc nD τ sig) → Buf (Elt Ideal) ℓ)

/-- The edge weights of core `c`'s arguments. -/
def W (c : Dev nD) : (⟨1, ![999999]⟩ : Shape).Idx → EReal :=
  weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

/-- WHAT POINT `t` WRITES BACK is block `t` of the result array of the arrays the region finds. -/
theorem flushed_eq (c : Dev nD) (t : Fin cfg0.N) :
    (dats m 0 c).flushed 6 t = ((cfg0.win 6).blk t).view.read (Elt Ideal) (resultArr (V m c main_v13) (V m c main_v14) (V m c main_v6) (V m c main_arg4) (V m c main_arg5) (V m c main_arg6)) := by
  show (cfg0.win 6).cut (grid0.coords t) ((dats m 0 c).after 6 t) = _
  rw [after0_6]
  exact out_block (V m c main_v13) (V m c main_v14) (V m c main_v6) (V m c main_arg4) (V m c main_arg5) (V m c main_arg6) t

/-- The region's result array after the run. -/
theorem final (c : Dev nD) : (dats m 0 c).arrAt 6 cfg0.N = resultArr (V m c main_v13) (V m c main_v14) (V m c main_v6) (V m c main_arg4) (V m c main_arg5) (V m c main_arg6) :=
  (dats m 0 c).arrAt_eq_of_cover 6 _ (fun t _ => flushed_eq m c t) cover6

/-- Row `n` of the result array, for a used edge `n` with both row numbers in range, is the edge's weight. -/
theorem row_weight (c : Dev nD)
    (hin : ∀ (a : Fin 2) (e : Fin 999999), InRange (endpoint (m ((c.tc : Thread nD τ).loc main_arg1)) a e))
    (e : (⟨1, ![999999]⟩ : Shape).Idx) :
    resultArr (V m c main_v13) (V m c main_v14) (V m c main_v6) (V m c main_arg4) (V m c main_arg5) (V m c main_arg6)
        (ix2 (⟨(e 0).val, Nat.lt_trans (e 0).isLt (by decide : 999999 < 1003520)⟩ : Fin 1003520) (0 : Fin 1))
      = W m c e := by
  obtain ⟨n, rfl⟩ : ∃ n : Fin 999999, e = ix1 n := ⟨e 0, eq_ix1 e⟩
  show rowWeight (V m c main_v13) (V m c main_v14) (V m c main_v6) (V m c main_arg4) (V m c main_arg5) (V m c main_arg6) n.val _ = _
  unfold rowWeight W weights
  have h0 : (fun j : Fin 64 => V m c main_v13 (ix2 (⟨n.val, Nat.lt_trans n.isLt (by decide : 999999 < 1003520)⟩ : Fin 1003520) j))
      = halfProj (m ((c.tc : Thread nD τ).loc main_arg0)) (m ((c.tc : Thread nD τ).loc main_arg3)) 0 (by omega) (rowOf (endpoint (m ((c.tc : Thread nD τ).loc main_arg1)) 0 n)) :=
    funext fun j => srcRows_apply m c n.val n.isLt j (hin 0 n)
  have h1 : (fun j : Fin 64 => V m c main_v14 (ix2 (⟨n.val, Nat.lt_trans n.isLt (by decide : 999999 < 1003520)⟩ : Fin 1003520) j))
      = halfProj (m ((c.tc : Thread nD τ).loc main_arg0)) (m ((c.tc : Thread nD τ).loc main_arg3)) 128 (by omega) (rowOf (endpoint (m ((c.tc : Thread nD τ).loc main_arg1)) 1 n)) :=
    funext fun j => dstRows_apply m c n.val n.isLt j (hin 1 n)
  have h3 : (fun j : Fin 64 => V m c main_arg4 (ix1 j)) = fun j => (m ((c.tc : Thread nD τ).loc main_arg4)) (ix1 j) := by rw [V_main_arg4]
  have h4 : (fun j : Fin 64 => V m c main_arg5 (ix2 j (0 : Fin 1))) = fun j => (m ((c.tc : Thread nD τ).loc main_arg5)) (ix2 j (0 : Fin 1)) := by
    rw [V_main_arg5]
  have h5 : V m c main_arg6 (ix1 (0 : Fin 1)) = (m ((c.tc : Thread nD τ).loc main_arg6)) (ix1 (0 : Fin 1)) := by rw [V_main_arg6]
  exact congr (congr (congr (congr (congr (congrArg edgeWeight h0) h1) (draws_apply m c n.val n.isLt)) h3) h4) h5

theorem run (ρ : Dev nD → PrngReg)
    (hin : ∀ (c : Dev nD) (a : Fin 2) (e : Fin 999999), InRange (endpoint (m ((c.tc : Thread nD τ).loc main_arg1)) a e)) :
    θ_run (defs (F := Ideal)) (onTc (τ := τ) (main (F := Ideal))) ⟨m, fun _ => 0, ρ⟩ (fun r => ∀ c : Dev nD,
      r.2.mem ((c.tc : Thread nD τ).loc main_v18) = twice (W m c)
      ∧ r.2.mem ((c.tc : Thread nD τ).loc main_v17) = W m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  have hw : ∀ c : Dev nD, Pipeline.afterTail₀ cfgs (dats m) 0 (V0 m) [hostOps1] c main_v17 = W m c := fun c =>
    (tail_weights m c _ (final m c)).trans (funext fun e => row_weight m c (hin c) e)
  refine (θ_run defs _ _).mono (fun r h c => ⟨?_, ?_,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩) (run_main m ρ)
  · rw [(h c).2 main_v18 (Pipeline.mem_restRefs_of main_v18 (by decide) (by decide)), tail_twice, hw]
  · rw [(h c).2 main_v17 (Pipeline.mem_restRefs_of main_v17 (by decide) (by decide)), hw]

end Cert.KernelSide

end
-- ==== Proof.lean ====
/-
  The three programs run, and the idealized kernel and the idealized reference end with the same two results.

  Both compute, for each of the 999999 used edges, the logistic function of a gate input (from the edge's uniform
  draw) plus the logit of a two-layer perceptron on the two endpoint rows of the embedding table (`Proof/EdgeGate.lean`).
  The reference joins the two endpoint rows into one 256-vector and multiplies it into the first layer's weights; the
  kernel multiplies the WHOLE table into each half of those weights first and then gathers rows of the two products:
  the sum over 256 terms is the sum of its two halves, and a format change is the identity at the ideal values. The
  kernel's gather fills a row with not-a-number where the row number is out of range, while the reference's clamps
  it: under the precondition every used row number is in range and the two agree. The second result is the first
  twice over, end to end, in both programs.
-/
import proofs.«424438_j83640193122891_2_alg».proof.Defs
import proofs.«424438_j83640193122891_2_alg».proof.Proof.Gen.Kernel
import proofs.«424438_j83640193122891_2_alg».proof.Proof.Gen.Kernel.Skeleton
import proofs.«424438_j83640193122891_2_alg».proof.Proof.Gen.Kernel.Launch
import proofs.«424438_j83640193122891_2_alg».proof.Proof.Gen.Kernel.Points
import proofs.«424438_j83640193122891_2_alg».proof.Proof.Gen.Kernel.Frame
import proofs.«424438_j83640193122891_2_alg».proof.Proof.Gen.KernelIdeal
import proofs.«424438_j83640193122891_2_alg».proof.Proof.Gen.KernelIdeal.Skeleton
import proofs.«424438_j83640193122891_2_alg».proof.Proof.Gen.KernelIdeal.Launch
import proofs.«424438_j83640193122891_2_alg».proof.Proof.Gen.KernelIdeal.Points
import proofs.«424438_j83640193122891_2_alg».proof.Proof.Gen.KernelIdeal.Frame
import proofs.«424438_j83640193122891_2_alg».proof.Proof.Gen.ReferenceIdeal
import proofs.«424438_j83640193122891_2_alg».proof.Proof.Gen.ReferenceIdeal.Run
import proofs.«424438_j83640193122891_2_alg».proof.Proof.Gen.ReferenceIdeal.Read
import proofs.«424438_j83640193122891_2_alg».proof.Proof.Gen.Pre_finite_inputs
import proofs.«424438_j83640193122891_2_alg».proof.Proof.EdgeGate
import proofs.«424438_j83640193122891_2_alg».proof.Proof.InRange
import proofs.«424438_j83640193122891_2_alg».proof.Proof.RefSide
import proofs.«424438_j83640193122891_2_alg».proof.Proof.KernelSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end at the edge weights of the (agreeing) arguments, and at those twice over. -/
theorem algebraic : Cert.algebraic_KernelIdeal_ReferenceIdeal := by
  intro m ρ m' ρ' hpre hagree
  have hin : ∀ (c : Dev Cert.KernelIdeal.nD) (a : Fin 2) (e : Fin 999999),
      Cert.EdgeGate.InRange (Cert.EdgeGate.endpoint (m ((c.tc : Thread Cert.KernelIdeal.nD Cert.KernelIdeal.τ).loc Cert.KernelIdeal.main_arg1)) a e) :=
    fun c a e => Cert.InRange.inRange_of_pre _ _ _ _ _ _ _ (hpre c) a e
  refine ⟨fun c => Cert.EdgeGate.twice (Cert.KernelSide.W m c), fun c => Cert.KernelSide.W m c, Cert.KernelSide.run m ρ hin, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v46_eq]
    unfold Cert.ReferenceIdeal.Read.val_main_v46
    rw [Cert.RefSide.ref_weights, (hagree c).1, (hagree c).2.1, (hagree c).2.2.1, (hagree c).2.2.2.1, (hagree c).2.2.2.2.1,
      (hagree c).2.2.2.2.2.1, (hagree c).2.2.2.2.2.2]
    rfl
  · rw [(h c).2.1, Cert.ReferenceIdeal.Read.val_main_v45_eq, Cert.RefSide.ref_weights, (hagree c).1, (hagree c).2.1,
      (hagree c).2.2.1, (hagree c).2.2.2.1, (hagree c).2.2.2.2.1, (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
